-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S800000x3 : Shape := ⟨2, ![800000, 3]⟩
abbrev S800000x1 : Shape := ⟨2, ![800000, 1]⟩
abbrev S50000x1 : Shape := ⟨2, ![50000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x3 : S_.BroadcastsInDim S800000x3 (![] : Fin 0 → Fin S800000x3.rank)
  reducesTo_S800000x3_S_d0_1 : S800000x3.ReducesTo [0, 1] S_
  bcast_S_S800000x1 : S_.BroadcastsInDim S800000x1 (![] : Fin 0 → Fin S800000x1.rank)
  reducesTo_S800000x1_S_d0_1 : S800000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg2 : IVec S2x800000 32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_c_20 : IVec S_ 32 := constantI S_ 32 0#32
  let main_v54 : IVec S2x800000 32 := broadcastInDim S2x800000 ![] bcast_S_S2x800000 main_c_20
  let main_v55 : IVec S2x800000 1 := cmpi .sge main_arg2 main_v54
  let main_c_21 : IVec S_ 1 := constantI S_ 1 1#1
  let main_v56 : IVec S_ 1 := (fun x v => Host.reduce IntOp.andi x v reducesTo_S2x800000_S_d0_1 h_S_) main_v55 main_c_21
  let main_v57 : IVec S_ 1 := andi main_v53 main_v56
  let main_c_22 : IVec S_ 32 := constantI S_ 32 50000#32
  let main_v58 : IVec S2x800000 32 := broadcastInDim S2x800000 ![] bcast_S_S2x800000 main_c_22
  let main_v59 : IVec S2x800000 1 := cmpi .slt main_arg2 main_v58
  let main_c_23 : IVec S_ 1 := constantI S_ 1 1#1
  let main_v60 : IVec S_ 1 := (fun x v => Host.reduce IntOp.andi x v reducesTo_S2x800000_S_d0_1 h_S_) main_v59 main_c_23
  let main_v61 : IVec S_ 1 := andi main_v57 main_v60
  main_v61

def fn_part2 {F : FTy → Type} [FloatOps F] (main_arg2 : IVec S2x800000 32) (main_arg8 : FVec F S128 .f32) (main_arg9 : FVec F S128x128 .f32) (main_arg10 : FVec F S128 .f32) (main_arg11 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg2 main_v48 main_v49 main_v50

def fn_part1 {F : FTy → Type} [FloatOps F] (main_arg2 : IVec S2x800000 32) (main_arg5 : FVec F S50000x1 .f32) (main_arg6 : FVec F S800000x1 .f32) (main_arg7 : FVec F S257x128 .f32) (main_arg8 : FVec F S128 .f32) (main_arg9 : FVec F S128x128 .f32) (main_arg10 : FVec F S128 .f32) (main_arg11 : FVec F S128x1 .f32) (main_v13 : IVec S_ 1) (main_v16 : IVec S800000x1 1) : IVec S_ 1 :=
  let main_c_5 : IVec S_ 1 := constantI S_ 1 1#1
  let main_v17 : IVec S_ 1 := (fun x v => Host.reduce IntOp.andi x v reducesTo_S800000x1_S_d0_1 h_S_) main_v16 main_c_5
  let main_v18 : IVec S_ 1 := andi main_v13 main_v17
  let main_v19 : FVec F S50000x1 .f32 := Host.absf main_arg5
  let main_cst_6 : FVec F S_ .f32 := constant S_ .f32 0x7F800000#32
  let main_v20 : FVec F S50000x1 .f32 := broadcastInDim S50000x1 ![] bcast_S_S50000x1 main_cst_6
  let main_v21 : IVec S50000x1 1 := cmpf .olt main_v19 main_v20
  let main_c_7 : IVec S_ 1 := constantI S_ 1 1#1
  let main_v22 : IVec S_ 1 := (fun x v => Host.reduce IntOp.andi x v reducesTo_S50000x1_S_d0_1 h_S_) main_v21 main_c_7
  let main_v23 : IVec S_ 1 := andi main_v18 main_v22
  let main_v24 : FVec F S800000x1 .f32 := Host.absf main_arg6
  let main_cst_8 : FVec F S_ .f32 := constant S_ .f32 0x7F800000#32
  let main_v25 : FVec F S800000x1 .f32 := broadcastInDim S800000x1 ![] bcast_S_S800000x1 main_cst_8
  let main_v26 : IVec S800000x1 1 := cmpf .olt main_v24 main_v25
  let main_c_9 : IVec S_ 1 := constantI S_ 1 1#1
  let main_v27 : IVec S_ 1 := (fun x v => Host.reduce IntOp.andi x v reducesTo_S800000x1_S_d0_1 h_S_) main_v26 main_c_9
  let main_v28 : IVec S_ 1 := andi main_v23 main_v27
  let main_v29 : FVec F S257x128 .f32 := Host.absf main_arg7
  let main_cst_10 : FVec F S_ .f32 := constant S_ .f32 0x7F800000#32
  let main_v30 : FVec F S257x128 .f32 := broadcastInDim S257x128 ![] bcast_S_S257x128 main_cst_10
  let main_v31 : IVec S257x128 1 := cmpf .olt main_v29 main_v30
  let main_c_11 : IVec S_ 1 := constantI S_ 1 1#1
  let main_v32 : IVec S_ 1 := (fun x v => Host.reduce IntOp.andi x v reducesTo_S257x128_S_d0_1 h_S_) main_v31 main_c_11
  let main_v33 : IVec S_ 1 := andi main_v28 main_v32
  fn_part2 (F := F) main_arg2 main_arg8 main_arg9 main_arg10 main_arg11 main_v33

def fn {F : FTy → Type} [FloatOps F] (main_arg0 : FVec F S50000x128 .f32) (main_arg1 : FVec F S50000x3 .f32) (main_arg2 : IVec S2x800000 32) (main_arg3 : FVec F S800000x3 .f32) (main_arg4 : FVec F S800000x1 .f32) (main_arg5 : FVec F S50000x1 .f32) (main_arg6 : FVec F S800000x1 .f32) (main_arg7 : FVec F S257x128 .f32) (main_arg8 : FVec F S128 .f32) (main_arg9 : FVec F S128x128 .f32) (main_arg10 : FVec F S128 .f32) (main_arg11 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x3 .f32 := Host.absf main_arg3
  let main_cst_2 : FVec F S_ .f32 := constant S_ .f32 0x7F800000#32
  let main_v10 : FVec F S800000x3 .f32 := broadcastInDim S800000x3 ![] bcast_S_S800000x3 main_cst_2
  let main_v11 : IVec S800000x3 1 := cmpf .olt main_v9 main_v10
  let main_c_3 : IVec S_ 1 := constantI S_ 1 1#1
  let main_v12 : IVec S_ 1 := (fun x v => Host.reduce IntOp.andi x v reducesTo_S800000x3_S_d0_1 h_S_) main_v11 main_c_3
  let main_v13 : IVec S_ 1 := andi main_v8 main_v12
  let main_v14 : FVec F S800000x1 .f32 := Host.absf main_arg4
  let main_cst_4 : FVec F S_ .f32 := constant S_ .f32 0x7F800000#32
  let main_v15 : FVec F S800000x1 .f32 := broadcastInDim S800000x1 ![] bcast_S_S800000x1 main_cst_4
  let main_v16 : IVec S800000x1 1 := cmpf .olt main_v14 main_v15
  fn_part1 (F := F) main_arg2 main_arg5 main_arg6 main_arg7 main_arg8 main_arg9 main_arg10 main_arg11 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S800000x3 : Shape := ⟨2, ![800000, 3]⟩
abbrev S800000x1 : Shape := ⟨2, ![800000, 1]⟩
abbrev S50000x1 : Shape := ⟨2, ![50000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S4000x128 : Shape := ⟨2, ![4000, 128]⟩
abbrev S4000x1 : Shape := ⟨2, ![4000, 1]⟩
abbrev S4000x3 : Shape := ⟨2, ![4000, 3]⟩

abbrev nBuf : Space → Nat
  | .hbm => 78
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S800000x3, .f32⟩
  | .hbm, ⟨4, _⟩ => ⟨S800000x1, .f32⟩
  | .hbm, ⟨5, _⟩ => ⟨S50000x1, .f32⟩
  | .hbm, ⟨6, _⟩ => ⟨S800000x1, .f32⟩
  | .hbm, ⟨7, _⟩ => ⟨S257x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x128, .f32⟩
  | .hbm, ⟨35, _⟩ => ⟨S800000x128, .i1⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x128, .f32⟩
  | .hbm, ⟨58, _⟩ => ⟨S800000x128, .i1⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S800000x3, .f32⟩
  | .hbm, ⟨68, _⟩ => ⟨S_, .f32⟩
  | .hbm, ⟨69, _⟩ => ⟨S50000x3, .f32⟩
  | .hbm, ⟨70, _⟩ => ⟨S800000x1, .i32⟩
  | .hbm, ⟨71, _⟩ => ⟨S50000x3, .f32⟩
  | .hbm, ⟨72, _⟩ => ⟨S_, .f32⟩
  | .hbm, ⟨73, _⟩ => ⟨S50000x3, .f32⟩
  | .hbm, ⟨74, _⟩ => ⟨S50000x3, .f32⟩
  | .hbm, ⟨75, _⟩ => ⟨S50000x3, .f32⟩
  | .hbm, ⟨76, _⟩ => ⟨S50000x3, .f32⟩
  | .hbm, ⟨77, _⟩ => ⟨S50000x3, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x3, .f32⟩
  | .local _ .vmem, ⟨7, _⟩ => ⟨S4000x3, .f32⟩
  | .local _ .vmem, ⟨8, _⟩ => ⟨S4000x1, .f32⟩
  | .local _ .vmem, ⟨9, _⟩ => ⟨S4000x1, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S4000x3, .f32⟩
  | .local _ .vmem, ⟨18, _⟩ => ⟨S4000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_cst_0 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S4000x3_S4000x3_0_0 : ∀ a, (![0, 0] : Fin 2 → Nat) a + S4000x3.size a ≤ S4000x3.size a
  h_S4000x3 : 0 < S4000x3.numel
  broadcasts_S4000x1_S4000x3 : S4000x1.Broadcasts S4000x3
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .f32 = 32 ∨ (Rect.block (s := S800000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S800000x3.size a
  hwx0_3 : ∀ i : grid0.Coords, EltTy.bits .f32 = 32 ∨ (Rect.block (s := S800000x3) S4000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S800000x1.size a
  hwx0_4 : ∀ i : grid0.Coords, EltTy.bits .f32 = 32 ∨ (Rect.block (s := S800000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x3.size a ≤ S800000x3.size a
  hwx0_12 : ∀ i : grid0.Coords, EltTy.bits .f32 = 32 ∨ (Rect.block (s := S800000x3) S4000x3.size (cc0_transform_12 i) (hinb0_12 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S4000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S800000x3 : Shape := ⟨2, ![800000, 3]⟩
abbrev S800000x1 : Shape := ⟨2, ![800000, 1]⟩
abbrev S50000x1 : Shape := ⟨2, ![50000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S800000x257 : Shape := ⟨2, ![800000, 257]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S800000x3, .f32⟩
  | .hbm, ⟨4, _⟩ => ⟨S800000x1, .f32⟩
  | .hbm, ⟨5, _⟩ => ⟨S50000x1, .f32⟩
  | .hbm, ⟨6, _⟩ => ⟨S800000x1, .f32⟩
  | .hbm, ⟨7, _⟩ => ⟨S257x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x257, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S800000x1, .f32⟩
  | .hbm, ⟨62, _⟩ => ⟨S800000x3, .f32⟩
  | .hbm, ⟨63, _⟩ => ⟨S800000x3, .f32⟩
  | .hbm, ⟨64, _⟩ => ⟨S800000x3, .f32⟩
  | .hbm, ⟨65, _⟩ => ⟨S800000x3, .f32⟩
  | .hbm, ⟨66, _⟩ => ⟨S_, .f32⟩
  | .hbm, ⟨67, _⟩ => ⟨S50000x3, .f32⟩
  | .hbm, ⟨68, _⟩ => ⟨S800000x1, .i32⟩
  | .hbm, ⟨69, _⟩ => ⟨S50000x3, .f32⟩
  | .hbm, ⟨70, _⟩ => ⟨S_, .f32⟩
  | .hbm, ⟨71, _⟩ => ⟨S50000x3, .f32⟩
  | .hbm, ⟨72, _⟩ => ⟨S50000x3, .f32⟩
  | .hbm, ⟨73, _⟩ => ⟨S50000x3, .f32⟩
  | .hbm, ⟨74, _⟩ => ⟨S50000x3, .f32⟩
  | .hbm, ⟨75, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_3 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.EdgeSpec.lean ====
/-
  One edge of the coordinate update, as a function of scalars.

  For an edge with endpoint feature rows `hr`, `hc` (128 numbers each), one edge attribute `ea`, a coordinate
  difference `cd` and an edge mask `em`, the update is

      cd · ( Σ_k silu( Σ_q x1 q · W2 q k + b2 k ) · w3 k ) · em,     x1 q = silu( (first layer) q ),

  where silu x = x · logistic x. The first layer can be written in two ways. Over the joined row
  `cat = hr ++ hc ++ [ea]` of 257 numbers it is one sum, Σ_r cat r · W1 r q + b1 q (`layer1cat`). Over the three
  pieces it is Σ_r hr r · Wa r q + Σ_r hc r · Wb r q + ea · wc q + b1 q (`layer1`), with Wa, Wb, wc the row blocks
  0‥127, 128‥255 and 256 of W1. The two agree (`layer1cat_eq`): a sum over 257 terms is the sum over the first 128, plus
  the sum over the next 128, plus the last term, and addition of extended reals is associative and commutative, so no
  finiteness is used.
-/
import Idealize.ShloMosaic.PureOps.Ideal
import Mathlib.Algebra.BigOperators.Fin

noncomputable section

open scoped BigOperators

namespace Cert.EdgeSpec

open Idealize.ShloMosaic

/-- silu x = x · logistic x, on the extended reals. -/
def silu (x : EReal) : EReal := x * Ideal.logistic x

/-- The first layer from the three pieces of the joined row: column `q` of
    silu(hr · Wa + hc · Wb + ea · wc + b1). -/
def layer1 (hr hc : Fin 128 → EReal) (ea : EReal) (Wa Wb : Fin 128 → Fin 128 → EReal) (wc b1 : Fin 128 → EReal)
    (q : Fin 128) : EReal :=
  silu ((((∑ r : Fin 128, hr r * Wa r q) + (∑ r : Fin 128, hc r * Wb r q)) + ea * wc q) + b1 q)

/-- The first layer from the joined row of 257 numbers: column `q` of silu(cat · W1 + b1). -/
def layer1cat (cat : Fin 257 → EReal) (W1 : Fin 257 → Fin 128 → EReal) (b1 : Fin 128 → EReal) (q : Fin 128) : EReal :=
  silu ((∑ r : Fin 257, cat r * W1 r q) + b1 q)

/-- From the first layer's output `x1` to the edge's update: second layer, projection to one number, scaling of the
    coordinate difference and masking. -/
def head (x1 : Fin 128 → EReal) (cd em : EReal) (W2 : Fin 128 → Fin 128 → EReal) (b2 w3 : Fin 128 → EReal) : EReal :=
  (cd * (∑ k : Fin 128, silu ((∑ q : Fin 128, x1 q * W2 q k) + b2 k) * w3 k)) * em

/-- A sum of 257 terms is the sum of the first 128, the next 128 and the last one. -/
theorem sum257 (f : Fin 257 → EReal) :
    ∑ r : Fin 257, f r
      = ((∑ r : Fin 128, f ⟨r.val, by omega⟩) + (∑ r : Fin 128, f ⟨128 + r.val, by omega⟩)) + f ⟨256, by omega⟩ := by
  have h1 : ∑ r : Fin 257, f r = (∑ i : Fin 256, f ⟨i.val, by omega⟩) + f ⟨256, by omega⟩ :=
    Fin.sum_univ_castSucc (n := 256) f
  have h2 : (∑ i : Fin 256, f ⟨i.val, by omega⟩)
      = (∑ r : Fin 128, f ⟨r.val, by omega⟩) + (∑ r : Fin 128, f ⟨128 + r.val, by omega⟩) :=
    Fin.sum_univ_add (fun i : Fin (128 + 128) => f ⟨i.val, by omega⟩)
  rw [h1, h2]

/-- The two spellings of the first layer agree. -/
theorem layer1cat_eq (cat : Fin 257 → EReal) (W1 : Fin 257 → Fin 128 → EReal) (b1 : Fin 128 → EReal) :
    layer1cat cat W1 b1
      = layer1 (fun r => cat ⟨r.val, by omega⟩) (fun r => cat ⟨128 + r.val, by omega⟩) (cat ⟨256, by omega⟩)
          (fun r q => W1 ⟨r.val, by omega⟩ q) (fun r q => W1 ⟨128 + r.val, by omega⟩ q) (fun q => W1 ⟨256, by omega⟩ q) b1 := by
  funext q
  unfold layer1cat layer1
  rw [sum257 (fun r => cat r * W1 r q)]

end Cert.EdgeSpec
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelPayload.lean ====
/-
  The kernel body's stored value at one entry of its block.

  At a grid point the body holds 4000 consecutive edges. Its one store writes, at row p and component d,

      cdiff(p, d) · ( Σ_k x2(p, k) · W3(k, 0) ) · emask(p, 0),
      x2(p, k) = silu( Σ_q x1(p, q) · W2(q, k) + b2(0, k) ),
      x1(p, q) = silu( Σ_r hrow(p, r) · W1a(r, q) + Σ_r hcol(p, r) · W1b(r, q) + eattr(p, 0) · W1c(0, q) + b1(0, q) ),

  the per-edge function `EdgeSpec.head (EdgeSpec.layer1 …)` of row p of each edge block and of the weight blocks. The
  three matrix products accumulate into zero arrays, so each entry is a plain sum of products; the changes of float
  format are the identity on the extended reals; the broadcasts repeat a column or a row.
-/
import proofs.«421546_j35570919145942_1_alg».proof.Proof.Gen.KernelIdeal.Skeleton
import proofs.«421546_j35570919145942_1_alg».proof.Proof.EdgeSpec
import proofs.«421546_j35570919145942_1_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.EdgeSpec

/-- The dimension numbers of the 4000 × 128 by 128 × 128 product are the plain ones. -/
theorem dotA_eq : dot_S4000x128_S128x128_S4000x128_1_0_0_1_n_n = DotDims.plain 4000 128 128 := rfl

/-- The dimension numbers of the 4000 × 128 by 128 × 1 product are the plain ones. -/
theorem dotB_eq : dot_S4000x128_S128x1_S4000x1_1_0_0_1_n_n = DotDims.plain 4000 128 1 := rfl

/-- The 4000 × 128 by 128 × 128 product into the zero array, at (p, k): the sum over q of A (p, q) · B (q, k). -/
theorem mmA {φ₁ φ₂ : FTy} (A : FVec Ideal S4000x128 φ₁) (B : FVec Ideal S128x128 φ₂) (p : Fin 4000) (k : Fin 128) :
    matmul dot_S4000x128_S128x128_S4000x128_1_0_0_1_n_n none A B (constant S4000x128 .f32 0x00000000#32) (ix2 p k)
      = ∑ q : Fin 128, A (ix2 p q) * B (ix2 q k) := by
  rw [dotA_eq]
  exact Cert.LibDotPlain.matmul_zero_plain 4000 128 128 none A B p k

/-- The 4000 × 128 by 128 × 1 product into the zero column, at (p, z): the sum over q of A (p, q) · B (q, z). -/
theorem mmB {φ₁ φ₂ : FTy} (A : FVec Ideal S4000x128 φ₁) (B : FVec Ideal S128x1 φ₂) (p : Fin 4000) (z : Fin 1) :
    matmul dot_S4000x128_S128x1_S4000x1_1_0_0_1_n_n none A B (constant S4000x1 .f32 0x00000000#32) (ix2 p z)
      = ∑ q : Fin 128, A (ix2 p q) * B (ix2 q z) := by
  rw [dotB_eq]
  exact Cert.LibDotPlain.matmul_zero_plain 4000 128 1 none A B p z

/-- An [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The last product, scaling and masking at (p, d). -/
theorem pay1_apply (v37 : FVec Ideal S4000x128 .f32) (v38 : FVec Ideal S128x1 .f32) (v40 : FVec Ideal S4000x3 .f32)
    (v43 : FVec Ideal S4000x1 .f32) (p : Fin 4000) (d : Fin 3) :
    k0_pay1 (F := Ideal) v37 v38 v40 v43 (ix2 p d)
      = (v40 (ix2 p d) * ∑ k : Fin 128, v37 (ix2 p k) * v38 (ix2 k 0)) * v43 (ix2 p 0) := by
  unfold k0_pay1
  show (v40 (ix2 p d) * broadcastTo S4000x3 (matmul dot_S4000x128_S128x1_S4000x1_1_0_0_1_n_n none v37 v38
      (constant S4000x1 .f32 0x00000000#32)) broadcasts_S4000x1_S4000x3 (ix2 p d))
      * broadcastTo S4000x3 v43 broadcasts_S4000x1_S4000x3 (ix2 p d) = _
  rw [broadcastTo_a1_ab_apply, broadcastTo_a1_ab_apply, mmB]

/-- A product of a 4000 × 128 array and a 128 × 128 array, both after a change of float format, into the zero
    array: the sum of products. -/
theorem dense_apply (V : FVec Ideal S4000x128 .f32) (W : FVec Ideal S128x128 .f32) (p : Fin 4000) (k : Fin 128) :
    matmul dot_S4000x128_S128x128_S4000x128_1_0_0_1_n_n none (truncf .bf16 V bitsLt_bf16_f32)
        (truncf .bf16 W bitsLt_bf16_f32) (constant S4000x128 .f32 0x00000000#32) (ix2 p k)
      = ∑ q : Fin 128, V (ix2 p q) * W (ix2 q k) :=
  mmA (truncf .bf16 V bitsLt_bf16_f32) (truncf .bf16 W bitsLt_bf16_f32) p k

/-- A [1, 128] row, cast to its own shape and repeated over the 4000 rows, read at (p, k): the row at k. -/
theorem row_apply (b : FVec Ideal S1x128 .f32) (p : Fin 4000) (k : Fin 128) :
    broadcastTo S4000x128 (shapeCast S1x128 b shapeCasts_S1x128_S1x128) broadcasts_S1x128_S4000x128 (ix2 p k)
      = b (ix2 0 k) := by
  rw [shapeCast_self]
  exact broadcastTo_1b_ab_apply b broadcasts_S1x128_S4000x128 p k

/-- The product of an array with its logistic, at an index, is silu of the entry. -/
theorem silu_apply {s : Shape} (Z : FVec Ideal s .f32) (i : s.Idx) : mulf Z (logistic Z) i = silu (Z i) := rfl

/-- The first layer before its activation, at (p, q). -/
theorem pre1_apply (x0 x1 : FVec Ideal S4000x128 .f32) (x2 : FVec Ideal S4000x1 .f32) (x5 x6 : FVec Ideal S128x128 .f32)
    (x7 x8 : FVec Ideal S1x128 .f32) (p : Fin 4000) (q : Fin 128) :
    addf (addf (addf
        (matmul dot_S4000x128_S128x128_S4000x128_1_0_0_1_n_n none
          (truncf .bf16 (shapeCast S4000x128 x0 shapeCasts_S4000x128_S4000x128) bitsLt_bf16_f32)
          (truncf .bf16 (shapeCast S128x128 x5 shapeCasts_S128x128_S128x128) bitsLt_bf16_f32)
          (constant S4000x128 .f32 0x00000000#32))
        (matmul dot_S4000x128_S128x128_S4000x128_1_0_0_1_n_n none
          (truncf .bf16 (shapeCast S4000x128 x1 shapeCasts_S4000x128_S4000x128) bitsLt_bf16_f32)
          (truncf .bf16 (shapeCast S128x128 x6 shapeCasts_S128x128_S128x128) bitsLt_bf16_f32)
          (constant S4000x128 .f32 0x00000000#32)))
        (mulf (broadcastTo S4000x128 x2 broadcasts_S4000x1_S4000x128)
          (broadcastTo S4000x128 (shapeCast S1x128 x7 shapeCasts_S1x128_S1x128) broadcasts_S1x128_S4000x128)))
        (broadcastTo S4000x128 (shapeCast S1x128 x8 shapeCasts_S1x128_S1x128) broadcasts_S1x128_S4000x128) (ix2 p q)
      = (((∑ r : Fin 128, x0 (ix2 p r) * x5 (ix2 r q)) + (∑ r : Fin 128, x1 (ix2 p r) * x6 (ix2 r q)))
          + x2 (ix2 p 0) * x7 (ix2 0 q)) + x8 (ix2 0 q) := by
  rw [shapeCast_self x0, shapeCast_self x1, shapeCast_self x5, shapeCast_self x6]
  show ((matmul dot_S4000x128_S128x128_S4000x128_1_0_0_1_n_n none (truncf .bf16 x0 bitsLt_bf16_f32)
            (truncf .bf16 x5 bitsLt_bf16_f32) (constant S4000x128 .f32 0x00000000#32) (ix2 p q)
          + matmul dot_S4000x128_S128x128_S4000x128_1_0_0_1_n_n none (truncf .bf16 x1 bitsLt_bf16_f32)
            (truncf .bf16 x6 bitsLt_bf16_f32) (constant S4000x128 .f32 0x00000000#32) (ix2 p q))
        + broadcastTo S4000x128 x2 broadcasts_S4000x1_S4000x128 (ix2 p q)
          * broadcastTo S4000x128 (shapeCast S1x128 x7 shapeCasts_S1x128_S1x128) broadcasts_S1x128_S4000x128 (ix2 p q))
      + broadcastTo S4000x128 (shapeCast S1x128 x8 shapeCasts_S1x128_S1x128) broadcasts_S1x128_S4000x128 (ix2 p q) = _
  rw [dense_apply, dense_apply, row_apply, row_apply, broadcastTo_a1_ab_apply]

/-- The second layer's output at (p, k): silu of the sum over q of the first layer's output times W2, plus the row
    b2. -/
theorem pay2_apply (x0 x1 : FVec Ideal S4000x128 .f32) (x2 : FVec Ideal S4000x1 .f32) (x5 x6 : FVec Ideal S128x128 .f32)
    (x7 x8 : FVec Ideal S1x128 .f32) (x9 : FVec Ideal S128x128 .f32) (x10 : FVec Ideal S1x128 .f32)
    (p : Fin 4000) (k : Fin 128) :
    k0_pay2 (F := Ideal) x0 x1 x5 x6 x2 x7 x8 x9 x10 (ix2 p k)
      = silu ((∑ q : Fin 128,
            layer1 (fun r => x0 (ix2 p r)) (fun r => x1 (ix2 p r)) (x2 (ix2 p 0))
              (fun r q => x5 (ix2 r q)) (fun r q => x6 (ix2 r q)) (fun q => x7 (ix2 0 q)) (fun q => x8 (ix2 0 q)) q
              * x9 (ix2 q k))
          + x10 (ix2 0 k)) := by
  unfold k0_pay2
  refine (silu_apply _ (ix2 p k)).trans (congrArg silu ?_)
  refine (addf_apply _ _ (ix2 p k)).trans ?_
  refine congrArg₂ (· + ·) ((dense_apply _ x9 p k).trans ?_) (row_apply x10 p k)
  refine Finset.sum_congr rfl fun q _ => congrArg (· * x9 (ix2 q k)) ?_
  refine (silu_apply _ (ix2 p q)).trans ?_
  unfold layer1
  exact congrArg silu (pre1_apply x0 x1 x2 x5 x6 x7 x8 p q)

/-- The stored value at row `p`, component `d` of the block is the per-edge function of row `p` of the edge blocks
    and of the weight blocks. -/
theorem pay_apply (x0 x1 : Vec Ideal S4000x128 .f32) (x2 : Vec Ideal S4000x1 .f32) (x3 : Vec Ideal S4000x3 .f32)
    (x4 : Vec Ideal S4000x1 .f32) (x5 x6 : Vec Ideal S128x128 .f32) (x7 x8 : Vec Ideal S1x128 .f32)
    (x9 : Vec Ideal S128x128 .f32) (x10 : Vec Ideal S1x128 .f32) (x11 : Vec Ideal S128x1 .f32)
    (p : Fin 4000) (d : Fin 3) :
    k0_pay1 (F := Ideal) (k0_pay2 (F := Ideal) x0 x1 x5 x6 x2 x7 x8 x9 x10) x11 x3 x4 (ix2 p d)
      = head (layer1 (fun r => x0 (ix2 p r)) (fun r => x1 (ix2 p r)) (x2 (ix2 p 0))
            (fun r q => x5 (ix2 r q)) (fun r q => x6 (ix2 r q)) (fun q => x7 (ix2 0 q)) (fun q => x8 (ix2 0 q)))
          (x3 (ix2 p d)) (x4 (ix2 p 0)) (fun q k => x9 (ix2 q k)) (fun k => x10 (ix2 0 k)) (fun k => x11 (ix2 k 0)) := by
  refine (pay1_apply _ x11 x3 x4 p d).trans ?_
  unfold head
  refine congrArg (fun t => (x3 (ix2 p d) * t) * x4 (ix2 p 0)) ?_
  exact Finset.sum_congr rfl fun k _ =>
    congrArg (· * x11 (ix2 k 0)) (pay2_apply x0 x1 x2 x5 x6 x7 x8 x9 x10 p k)

end Cert.KernelIdeal.Payload
-- ==== Proof.KernelArray.lean ====
/-
  The kernel's output array after its 200 grid points, as one function of the arrays the region finds.

  Grid point t works on edges 4000·t … 4000·t + 3999: the blocks of the five per-edge arrays (the two gathered feature
  arrays, the edge attributes, the coordinate differences, the edge masks) and of the output are rows
  4000·t + p, p < 4000, of their arrays, while the seven weight arrays are one block each, the same at every point. So
  what point t writes back is rows 4000·t … 4000·t + 3999 of the array whose entry (e, d) is the per-edge function of
  row e of the per-edge arrays and of the weights; the 200 blocks tile the 800000 rows (row e is in block e / 4000), and
  the output array ends holding that function everywhere.
  A block is read here from ARBITRARY contents of its array first (only the index arithmetic matters), and the
  arrays as the region finds them are put in afterwards.
-/
import proofs.«421546_j35570919145942_1_alg».proof.Proof.Gen.KernelIdeal.Frame
import proofs.«421546_j35570919145942_1_alg».proof.Proof.KernelPayload
import Idealize.ShloMosaic.Lib.Pipeline.Value
import Idealize.ShloMosaic.Lib.ValueIdx

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.EdgeSpec
open Idealize.ShloMosaic.Pipeline (Dat)

theorem hz : (![0, 0] : Fin 2 → Nat) = fun _ => 0 := funext fun a => by fin_cases a <;> rfl

/-! ## The index maps, decided over the grid -/

/-- The per-edge windows and the output move down their arrays one block per point. -/
theorem idx_edge : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_12.index t (0 : Fin 2) = t.val ∧ win0_12.index t (1 : Fin 2) = 0) :=
  (by decide +kernel : ∀ t : Fin grid0.N, _)

/-- The weights' windows stay at their one block. -/
theorem idx_const : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem point_lt (t : Fin cfg0.N) : t.val < 200 :=
  lt_of_lt_of_eq t.isLt (show cfg0.N = 200 from N_0)

/-! ## Each window's block at a point, read from arbitrary contents of its array -/

/-- Window 0's block at point t, read from any contents of its array: rows 4000·t + p. -/
theorem read0 (c : Dev nD) (A : Buf (Elt Ideal) ((c : Thread nD τ).loc (Pipeline.arrRef spec0 0))) (t : Fin cfg0.N)
    (p : Fin 4000) (q : Fin 128) (e : Fin 800000) (he : e.val = 4000 * t.val + p.val) :
    (((cfg0.win 0).blk t).view.read (Elt Ideal) A : Vec Ideal S4000x128 .f32) (ix2 p q) = (A : Vec Ideal S800000x128 .f32) (ix2 e q) := by
  have hi := (idx_edge t).1
  rw [View.read_apply]
  have h : ((cfg0.win 0).blk t).view.emb (ix2 p q) = (ix2 e q : S800000x128.Idx) := by
    funext a
    apply Fin.ext
    match a with
    | ⟨0, _⟩ => show win0_0.index t (0 : Fin 2) * 4000 + 1 * p.val = e.val; rw [hi.1, he]; omega
    | ⟨1, _⟩ => show win0_0.index t (1 : Fin 2) * 128 + 1 * q.val = q.val; rw [hi.2]; omega
  rw [h]
  rfl

/-- Window 1's block at point t, read from any contents of its array: rows 4000·t + p. -/
theorem read1 (c : Dev nD) (A : Buf (Elt Ideal) ((c : Thread nD τ).loc (Pipeline.arrRef spec0 1))) (t : Fin cfg0.N)
    (p : Fin 4000) (q : Fin 128) (e : Fin 800000) (he : e.val = 4000 * t.val + p.val) :
    (((cfg0.win 1).blk t).view.read (Elt Ideal) A : Vec Ideal S4000x128 .f32) (ix2 p q) = (A : Vec Ideal S800000x128 .f32) (ix2 e q) := by
  have hi := (idx_edge t).2.1
  rw [View.read_apply]
  have h : ((cfg0.win 1).blk t).view.emb (ix2 p q) = (ix2 e q : S800000x128.Idx) := by
    funext a
    apply Fin.ext
    match a with
    | ⟨0, _⟩ => show win0_1.index t (0 : Fin 2) * 4000 + 1 * p.val = e.val; rw [hi.1, he]; omega
    | ⟨1, _⟩ => show win0_1.index t (1 : Fin 2) * 128 + 1 * q.val = q.val; rw [hi.2]; omega
  rw [h]
  rfl

/-- Window 2's block at point t, read from any contents of its array: rows 4000·t + p. -/
theorem read2 (c : Dev nD) (A : Buf (Elt Ideal) ((c : Thread nD τ).loc (Pipeline.arrRef spec0 2))) (t : Fin cfg0.N)
    (p : Fin 4000) (q : Fin 1) (e : Fin 800000) (he : e.val = 4000 * t.val + p.val) :
    (((cfg0.win 2).blk t).view.read (Elt Ideal) A : Vec Ideal S4000x1 .f32) (ix2 p q) = (A : Vec Ideal S800000x1 .f32) (ix2 e q) := by
  have hi := (idx_edge t).2.2.1
  rw [View.read_apply]
  have h : ((cfg0.win 2).blk t).view.emb (ix2 p q) = (ix2 e q : S800000x1.Idx) := by
    funext a
    apply Fin.ext
    match a with
    | ⟨0, _⟩ => show win0_2.index t (0 : Fin 2) * 4000 + 1 * p.val = e.val; rw [hi.1, he]; omega
    | ⟨1, _⟩ => show win0_2.index t (1 : Fin 2) * 1 + 1 * q.val = q.val; rw [hi.2]; omega
  rw [h]
  rfl

/-- Window 3's block at point t, read from any contents of its array: rows 4000·t + p. -/
theorem read3 (c : Dev nD) (A : Buf (Elt Ideal) ((c : Thread nD τ).loc (Pipeline.arrRef spec0 3))) (t : Fin cfg0.N)
    (p : Fin 4000) (q : Fin 3) (e : Fin 800000) (he : e.val = 4000 * t.val + p.val) :
    (((cfg0.win 3).blk t).view.read (Elt Ideal) A : Vec Ideal S4000x3 .f32) (ix2 p q) = (A : Vec Ideal S800000x3 .f32) (ix2 e q) := by
  have hi := (idx_edge t).2.2.2.1
  rw [View.read_apply]
  have h : ((cfg0.win 3).blk t).view.emb (ix2 p q) = (ix2 e q : S800000x3.Idx) := by
    funext a
    apply Fin.ext
    match a with
    | ⟨0, _⟩ => show win0_3.index t (0 : Fin 2) * 4000 + 1 * p.val = e.val; rw [hi.1, he]; omega
    | ⟨1, _⟩ => show win0_3.index t (1 : Fin 2) * 3 + 1 * q.val = q.val; rw [hi.2]; omega
  rw [h]
  rfl

/-- Window 4's block at point t, read from any contents of its array: rows 4000·t + p. -/
theorem read4 (c : Dev nD) (A : Buf (Elt Ideal) ((c : Thread nD τ).loc (Pipeline.arrRef spec0 4))) (t : Fin cfg0.N)
    (p : Fin 4000) (q : Fin 1) (e : Fin 800000) (he : e.val = 4000 * t.val + p.val) :
    (((cfg0.win 4).blk t).view.read (Elt Ideal) A : Vec Ideal S4000x1 .f32) (ix2 p q) = (A : Vec Ideal S800000x1 .f32) (ix2 e q) := by
  have hi := (idx_edge t).2.2.2.2.1
  rw [View.read_apply]
  have h : ((cfg0.win 4).blk t).view.emb (ix2 p q) = (ix2 e q : S800000x1.Idx) := by
    funext a
    apply Fin.ext
    match a with
    | ⟨0, _⟩ => show win0_4.index t (0 : Fin 2) * 4000 + 1 * p.val = e.val; rw [hi.1, he]; omega
    | ⟨1, _⟩ => show win0_4.index t (1 : Fin 2) * 1 + 1 * q.val = q.val; rw [hi.2]; omega
  rw [h]
  rfl

/-- Window 5's one block, read from any contents of its array: the array itself. -/
theorem read5 (c : Dev nD) (A : Buf (Elt Ideal) ((c : Thread nD τ).loc (Pipeline.arrRef spec0 5))) (t : Fin cfg0.N)
    (p : Fin 128) (q : Fin 128) :
    (((cfg0.win 5).blk t).view.read (Elt Ideal) A : Vec Ideal S128x128 .f32) (ix2 p q) = (A : Vec Ideal S128x128 .f32) (ix2 p q) := by
  have hi := (idx_const t).1
  rw [View.read_apply]
  have h : ((cfg0.win 5).blk t).view.emb (ix2 p q) = (ix2 p q : S128x128.Idx) := by
    funext a
    apply Fin.ext
    match a with
    | ⟨0, _⟩ => show win0_5.index t (0 : Fin 2) * 128 + 1 * p.val = p.val; rw [hi.1]; omega
    | ⟨1, _⟩ => show win0_5.index t (1 : Fin 2) * 128 + 1 * q.val = q.val; rw [hi.2]; omega
  rw [h]
  rfl

/-- Window 6's one block, read from any contents of its array: the array itself. -/
theorem read6 (c : Dev nD) (A : Buf (Elt Ideal) ((c : Thread nD τ).loc (Pipeline.arrRef spec0 6))) (t : Fin cfg0.N)
    (p : Fin 128) (q : Fin 128) :
    (((cfg0.win 6).blk t).view.read (Elt Ideal) A : Vec Ideal S128x128 .f32) (ix2 p q) = (A : Vec Ideal S128x128 .f32) (ix2 p q) := by
  have hi := (idx_const t).2.1
  rw [View.read_apply]
  have h : ((cfg0.win 6).blk t).view.emb (ix2 p q) = (ix2 p q : S128x128.Idx) := by
    funext a
    apply Fin.ext
    match a with
    | ⟨0, _⟩ => show win0_6.index t (0 : Fin 2) * 128 + 1 * p.val = p.val; rw [hi.1]; omega
    | ⟨1, _⟩ => show win0_6.index t (1 : Fin 2) * 128 + 1 * q.val = q.val; rw [hi.2]; omega
  rw [h]
  rfl

/-- Window 7's one block, read from any contents of its array: the array itself. -/
theorem read7 (c : Dev nD) (A : Buf (Elt Ideal) ((c : Thread nD τ).loc (Pipeline.arrRef spec0 7))) (t : Fin cfg0.N)
    (p : Fin 1) (q : Fin 128) :
    (((cfg0.win 7).blk t).view.read (Elt Ideal) A : Vec Ideal S1x128 .f32) (ix2 p q) = (A : Vec Ideal S1x128 .f32) (ix2 p q) := by
  have hi := (idx_const t).2.2.1
  rw [View.read_apply]
  have h : ((cfg0.win 7).blk t).view.emb (ix2 p q) = (ix2 p q : S1x128.Idx) := by
    funext a
    apply Fin.ext
    match a with
    | ⟨0, _⟩ => show win0_7.index t (0 : Fin 2) * 1 + 1 * p.val = p.val; rw [hi.1]; omega
    | ⟨1, _⟩ => show win0_7.index t (1 : Fin 2) * 128 + 1 * q.val = q.val; rw [hi.2]; omega
  rw [h]
  rfl

/-- Window 8's one block, read from any contents of its array: the array itself. -/
theorem read8 (c : Dev nD) (A : Buf (Elt Ideal) ((c : Thread nD τ).loc (Pipeline.arrRef spec0 8))) (t : Fin cfg0.N)
    (p : Fin 1) (q : Fin 128) :
    (((cfg0.win 8).blk t).view.read (Elt Ideal) A : Vec Ideal S1x128 .f32) (ix2 p q) = (A : Vec Ideal S1x128 .f32) (ix2 p q) := by
  have hi := (idx_const t).2.2.2.1
  rw [View.read_apply]
  have h : ((cfg0.win 8).blk t).view.emb (ix2 p q) = (ix2 p q : S1x128.Idx) := by
    funext a
    apply Fin.ext
    match a with
    | ⟨0, _⟩ => show win0_8.index t (0 : Fin 2) * 1 + 1 * p.val = p.val; rw [hi.1]; omega
    | ⟨1, _⟩ => show win0_8.index t (1 : Fin 2) * 128 + 1 * q.val = q.val; rw [hi.2]; omega
  rw [h]
  rfl

/-- Window 9's one block, read from any contents of its array: the array itself. -/
theorem read9 (c : Dev nD) (A : Buf (Elt Ideal) ((c : Thread nD τ).loc (Pipeline.arrRef spec0 9))) (t : Fin cfg0.N)
    (p : Fin 128) (q : Fin 128) :
    (((cfg0.win 9).blk t).view.read (Elt Ideal) A : Vec Ideal S128x128 .f32) (ix2 p q) = (A : Vec Ideal S128x128 .f32) (ix2 p q) := by
  have hi := (idx_const t).2.2.2.2.1
  rw [View.read_apply]
  have h : ((cfg0.win 9).blk t).view.emb (ix2 p q) = (ix2 p q : S128x128.Idx) := by
    funext a
    apply Fin.ext
    match a with
    | ⟨0, _⟩ => show win0_9.index t (0 : Fin 2) * 128 + 1 * p.val = p.val; rw [hi.1]; omega
    | ⟨1, _⟩ => show win0_9.index t (1 : Fin 2) * 128 + 1 * q.val = q.val; rw [hi.2]; omega
  rw [h]
  rfl

/-- Window 10's one block, read from any contents of its array: the array itself. -/
theorem read10 (c : Dev nD) (A : Buf (Elt Ideal) ((c : Thread nD τ).loc (Pipeline.arrRef spec0 10))) (t : Fin cfg0.N)
    (p : Fin 1) (q : Fin 128) :
    (((cfg0.win 10).blk t).view.read (Elt Ideal) A : Vec Ideal S1x128 .f32) (ix2 p q) = (A : Vec Ideal S1x128 .f32) (ix2 p q) := by
  have hi := (idx_const t).2.2.2.2.2.1
  rw [View.read_apply]
  have h : ((cfg0.win 10).blk t).view.emb (ix2 p q) = (ix2 p q : S1x128.Idx) := by
    funext a
    apply Fin.ext
    match a with
    | ⟨0, _⟩ => show win0_10.index t (0 : Fin 2) * 1 + 1 * p.val = p.val; rw [hi.1]; omega
    | ⟨1, _⟩ => show win0_10.index t (1 : Fin 2) * 128 + 1 * q.val = q.val; rw [hi.2]; omega
  rw [h]
  rfl

/-- Window 11's one block, read from any contents of its array: the array itself. -/
theorem read11 (c : Dev nD) (A : Buf (Elt Ideal) ((c : Thread nD τ).loc (Pipeline.arrRef spec0 11))) (t : Fin cfg0.N)
    (p : Fin 128) (q : Fin 1) :
    (((cfg0.win 11).blk t).view.read (Elt Ideal) A : Vec Ideal S128x1 .f32) (ix2 p q) = (A : Vec Ideal S128x1 .f32) (ix2 p q) := by
  have hi := (idx_const t).2.2.2.2.2.2
  rw [View.read_apply]
  have h : ((cfg0.win 11).blk t).view.emb (ix2 p q) = (ix2 p q : S128x1.Idx) := by
    funext a
    apply Fin.ext
    match a with
    | ⟨0, _⟩ => show win0_11.index t (0 : Fin 2) * 128 + 1 * p.val = p.val; rw [hi.1]; omega
    | ⟨1, _⟩ => show win0_11.index t (1 : Fin 2) * 1 + 1 * q.val = q.val; rw [hi.2]; omega
  rw [h]
  rfl

/-- What a write-back of block contents `X` at point t writes is block t of an array `G`, as soon as `X` at (p, d) is
    `G` at row 4000·t + p. -/
theorem writeback12 (c : Dev nD) (t : Fin cfg0.N) (X : Vec Ideal S4000x3 .f32)
    (G : Buf (Elt Ideal) ((c : Thread nD τ).loc (Pipeline.arrRef spec0 12)))
    (h : ∀ (p : Fin 4000) (d : Fin 3) (e : Fin 800000), e.val = 4000 * t.val + p.val →
      X (ix2 p d) = (G : Vec Ideal S800000x3 .f32) (ix2 e d)) :
    (cfg0.win 12).cut (grid0.coords t) X = ((cfg0.win 12).blk t).view.read (Elt Ideal) G := by
  have hi := (idx_edge t).2.2.2.2.2
  have ht := point_lt t
  funext y
  have hy0 : (y 0).val < 4000 := (y 0).isLt
  have hy1 : (y 1).val < 3 := (y 1).isLt
  have hx : (cfg0.win 12).xinj (grid0.coords t) y = (ix2 (⟨(y 0).val, hy0⟩ : Fin 4000) (⟨(y 1).val, hy1⟩ : Fin 3) : S4000x3.Idx) :=
    funext fun a => Fin.ext (by
      match a with
      | ⟨0, _⟩ => rfl
      | ⟨1, _⟩ => rfl)
  show X ((cfg0.win 12).xinj (grid0.coords t) y) = _
  rw [hx, h ⟨(y 0).val, hy0⟩ ⟨(y 1).val, hy1⟩ ⟨4000 * t.val + (y 0).val, by omega⟩ rfl, View.read_apply]
  have he : ((cfg0.win 12).blk t).view.emb y
      = (ix2 (⟨4000 * t.val + (y 0).val, by omega⟩ : Fin 800000) (⟨(y 1).val, hy1⟩ : Fin 3) : S800000x3.Idx) := by
    funext a
    apply Fin.ext
    match a with
    | ⟨0, _⟩ => show win0_12.index t (0 : Fin 2) * 4000 + 1 * (y 0).val = 4000 * t.val + (y 0).val; rw [hi.1]; omega
    | ⟨1, _⟩ => show win0_12.index t (1 : Fin 2) * 3 + 1 * (y 1).val = (y 1).val; rw [hi.2]; omega
  rw [he]
  rfl

/-! ## The arrays as the region finds them -/

variable (m : (ℓ : Loc nD τ sig) → Buf (Elt Ideal) ℓ)

abbrev arr0 (c : Dev nD) : Vec Ideal S800000x128 .f32 := V m c (Pipeline.arrRef spec0 0)
abbrev arr1 (c : Dev nD) : Vec Ideal S800000x128 .f32 := V m c (Pipeline.arrRef spec0 1)
abbrev arr2 (c : Dev nD) : Vec Ideal S800000x1 .f32 := V m c (Pipeline.arrRef spec0 2)
abbrev arr3 (c : Dev nD) : Vec Ideal S800000x3 .f32 := V m c (Pipeline.arrRef spec0 3)
abbrev arr4 (c : Dev nD) : Vec Ideal S800000x1 .f32 := V m c (Pipeline.arrRef spec0 4)
abbrev arr5 (c : Dev nD) : Vec Ideal S128x128 .f32 := V m c (Pipeline.arrRef spec0 5)
abbrev arr6 (c : Dev nD) : Vec Ideal S128x128 .f32 := V m c (Pipeline.arrRef spec0 6)
abbrev arr7 (c : Dev nD) : Vec Ideal S1x128 .f32 := V m c (Pipeline.arrRef spec0 7)
abbrev arr8 (c : Dev nD) : Vec Ideal S1x128 .f32 := V m c (Pipeline.arrRef spec0 8)
abbrev arr9 (c : Dev nD) : Vec Ideal S128x128 .f32 := V m c (Pipeline.arrRef spec0 9)
abbrev arr10 (c : Dev nD) : Vec Ideal S1x128 .f32 := V m c (Pipeline.arrRef spec0 10)
abbrev arr11 (c : Dev nD) : Vec Ideal S128x1 .f32 := V m c (Pipeline.arrRef spec0 11)

theorem blk0 (c : Dev nD) (t : Fin cfg0.N) (p : Fin 4000) (q : Fin 128) (e : Fin 800000) (he : e.val = 4000 * t.val + p.val) :
    (iblk m c 0 t : Vec Ideal S4000x128 .f32) (ix2 p q) = arr0 m c (ix2 e q) := by
  unfold iblk
  exact read0 c (V m c (Pipeline.arrRef spec0 0)) t p q e he
theorem blk1 (c : Dev nD) (t : Fin cfg0.N) (p : Fin 4000) (q : Fin 128) (e : Fin 800000) (he : e.val = 4000 * t.val + p.val) :
    (iblk m c 1 t : Vec Ideal S4000x128 .f32) (ix2 p q) = arr1 m c (ix2 e q) := by
  unfold iblk
  exact read1 c (V m c (Pipeline.arrRef spec0 1)) t p q e he
theorem blk2 (c : Dev nD) (t : Fin cfg0.N) (p : Fin 4000) (q : Fin 1) (e : Fin 800000) (he : e.val = 4000 * t.val + p.val) :
    (iblk m c 2 t : Vec Ideal S4000x1 .f32) (ix2 p q) = arr2 m c (ix2 e q) := by
  unfold iblk
  exact read2 c (V m c (Pipeline.arrRef spec0 2)) t p q e he
theorem blk3 (c : Dev nD) (t : Fin cfg0.N) (p : Fin 4000) (q : Fin 3) (e : Fin 800000) (he : e.val = 4000 * t.val + p.val) :
    (iblk m c 3 t : Vec Ideal S4000x3 .f32) (ix2 p q) = arr3 m c (ix2 e q) := by
  unfold iblk
  exact read3 c (V m c (Pipeline.arrRef spec0 3)) t p q e he
theorem blk4 (c : Dev nD) (t : Fin cfg0.N) (p : Fin 4000) (q : Fin 1) (e : Fin 800000) (he : e.val = 4000 * t.val + p.val) :
    (iblk m c 4 t : Vec Ideal S4000x1 .f32) (ix2 p q) = arr4 m c (ix2 e q) := by
  unfold iblk
  exact read4 c (V m c (Pipeline.arrRef spec0 4)) t p q e he
theorem blk5 (c : Dev nD) (t : Fin cfg0.N) (p : Fin 128) (q : Fin 128) :
    (iblk m c 5 t : Vec Ideal S128x128 .f32) (ix2 p q) = arr5 m c (ix2 p q) := by
  unfold iblk
  exact read5 c (V m c (Pipeline.arrRef spec0 5)) t p q
theorem blk6 (c : Dev nD) (t : Fin cfg0.N) (p : Fin 128) (q : Fin 128) :
    (iblk m c 6 t : Vec Ideal S128x128 .f32) (ix2 p q) = arr6 m c (ix2 p q) := by
  unfold iblk
  exact read6 c (V m c (Pipeline.arrRef spec0 6)) t p q
theorem blk7 (c : Dev nD) (t : Fin cfg0.N) (p : Fin 1) (q : Fin 128) :
    (iblk m c 7 t : Vec Ideal S1x128 .f32) (ix2 p q) = arr7 m c (ix2 p q) := by
  unfold iblk
  exact read7 c (V m c (Pipeline.arrRef spec0 7)) t p q
theorem blk8 (c : Dev nD) (t : Fin cfg0.N) (p : Fin 1) (q : Fin 128) :
    (iblk m c 8 t : Vec Ideal S1x128 .f32) (ix2 p q) = arr8 m c (ix2 p q) := by
  unfold iblk
  exact read8 c (V m c (Pipeline.arrRef spec0 8)) t p q
theorem blk9 (c : Dev nD) (t : Fin cfg0.N) (p : Fin 128) (q : Fin 128) :
    (iblk m c 9 t : Vec Ideal S128x128 .f32) (ix2 p q) = arr9 m c (ix2 p q) := by
  unfold iblk
  exact read9 c (V m c (Pipeline.arrRef spec0 9)) t p q
theorem blk10 (c : Dev nD) (t : Fin cfg0.N) (p : Fin 1) (q : Fin 128) :
    (iblk m c 10 t : Vec Ideal S1x128 .f32) (ix2 p q) = arr10 m c (ix2 p q) := by
  unfold iblk
  exact read10 c (V m c (Pipeline.arrRef spec0 10)) t p q
theorem blk11 (c : Dev nD) (t : Fin cfg0.N) (p : Fin 128) (q : Fin 1) :
    (iblk m c 11 t : Vec Ideal S128x1 .f32) (ix2 p q) = arr11 m c (ix2 p q) := by
  unfold iblk
  exact read11 c (V m c (Pipeline.arrRef spec0 11)) t p q

/-- Entry (e, d) of the output: the per-edge function of row e of the per-edge arrays and of the weights. -/
def edgeVal (c : Dev nD) (e : Fin 800000) (d : Fin 3) : EReal :=
  head (layer1 (fun r => arr0 m c (ix2 e r)) (fun r => arr1 m c (ix2 e r)) (arr2 m c (ix2 e 0))
      (fun r q => arr5 m c (ix2 r q)) (fun r q => arr6 m c (ix2 r q)) (fun q => arr7 m c (ix2 0 q)) (fun q => arr8 m c (ix2 0 q)))
    (arr3 m c (ix2 e d)) (arr4 m c (ix2 e 0)) (fun q k => arr9 m c (ix2 q k)) (fun k => arr10 m c (ix2 0 k))
    (fun k => arr11 m c (ix2 k 0))

/-- The whole output array. -/
def outArr (c : Dev nD) : Vec Ideal S800000x3 .f32 :=
  fun i => edgeVal m c ⟨(i 0).val, (i 0).isLt⟩ ⟨(i 1).val, (i 1).isLt⟩

theorem outArr_apply (c : Dev nD) (e : Fin 800000) (d : Fin 3) : outArr m c (ix2 e d) = edgeVal m c e d := rfl

/-! ## What a point writes back, the cover, the array after the run -/

/-- Point t writes back block t of `outArr`. -/
theorem flushed12 (c : Dev nD) (t : Fin cfg0.N) :
    (dats m 0 c).flushed 12 t = ((cfg0.win 12).blk t).view.read (Elt Ideal) (outArr m c) := by
  show (cfg0.win 12).cut (grid0.coords t) ((dats m 0 c).after 12 t) = _
  rw [after0_12]
  unfold out0_12
  rw [View.canon_unit_zero hz]
  simp only [View.ld_unit_zero (S := S4000x128) hz, View.ld_unit_zero (S := S128x128) hz, View.ld_unit_zero (S := S4000x1) hz,
    View.ld_unit_zero (S := S1x128) hz, View.ld_unit_zero (S := S128x1) hz, View.ld_unit_zero (S := S4000x3) hz]
  refine writeback12 c t _ (outArr m c) (fun p d e he => ?_)
  refine (Payload.pay_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p d).trans ?_
  rw [outArr_apply]
  unfold edgeVal
  have e0 : (fun r : Fin 128 => iblk m c 0 t (ix2 p r)) = fun r => arr0 m c (ix2 e r) := funext fun r => blk0 m c t p r e he
  have e1 : (fun r : Fin 128 => iblk m c 1 t (ix2 p r)) = fun r => arr1 m c (ix2 e r) := funext fun r => blk1 m c t p r e he
  have e5 : (fun (r q : Fin 128) => iblk m c 5 t (ix2 r q)) = fun r q => arr5 m c (ix2 r q) := funext fun r => funext fun q => blk5 m c t r q
  have e6 : (fun (r q : Fin 128) => iblk m c 6 t (ix2 r q)) = fun r q => arr6 m c (ix2 r q) := funext fun r => funext fun q => blk6 m c t r q
  have e7 : (fun q : Fin 128 => iblk m c 7 t (ix2 0 q)) = fun q => arr7 m c (ix2 0 q) := funext fun q => blk7 m c t 0 q
  have e8 : (fun q : Fin 128 => iblk m c 8 t (ix2 0 q)) = fun q => arr8 m c (ix2 0 q) := funext fun q => blk8 m c t 0 q
  have e9 : (fun (q k : Fin 128) => iblk m c 9 t (ix2 q k)) = fun q k => arr9 m c (ix2 q k) := funext fun q => funext fun k => blk9 m c t q k
  have e10 : (fun k : Fin 128 => iblk m c 10 t (ix2 0 k)) = fun k => arr10 m c (ix2 0 k) := funext fun k => blk10 m c t 0 k
  have e11 : (fun k : Fin 128 => iblk m c 11 t (ix2 k 0)) = fun k => arr11 m c (ix2 k 0) := funext fun k => blk11 m c t k 0
  rw [e0, e1, e5, e6, e7, e8, e9, e10, e11, blk2 m c t p 0 e he, blk3 m c t p d e he, blk4 m c t p 0 e he]

/-- Row e of the output lies in the block of point e / 4000. -/
theorem cover12 (i : S800000x3.Idx) :
    ∃ t : Fin cfg0.N, (cfg0.win 12).flush t = true ∧ i ∈ ((cfg0.win 12).blk t).view.set := by
  have hi0 : (i 0).val < 800000 := (i 0).isLt
  have hi1 : (i 1).val < 3 := (i 1).isLt
  let t : Fin cfg0.N := ⟨(i 0).val / 4000, by rw [show cfg0.N = 200 from N_0]; omega⟩
  have hi := (idx_edge t).2.2.2.2.2
  refine ⟨t, flush0_12 t, ?_⟩
  show i ∈ ((View.whole main_v11).slice (win0_12.rect t)).set
  rw [View.set_slice_whole, Rect.mem_set_unit]
  intro a
  have htv : t.val = (i 0).val / 4000 := rfl
  match a with
  | ⟨0, _⟩ =>
    show win0_12.index t (0 : Fin 2) * 4000 ≤ (i 0).val ∧ (i 0).val < win0_12.index t (0 : Fin 2) * 4000 + 4000
    rw [hi.1, htv]; omega
  | ⟨1, _⟩ =>
    show win0_12.index t (1 : Fin 2) * 3 ≤ (i 1).val ∧ (i 1).val < win0_12.index t (1 : Fin 2) * 3 + 3
    rw [hi.2]; omega

/-- The output array after the run. -/
theorem final12 (c : Dev nD) : (dats m 0 c).arrAt 12 cfg0.N = outArr m c :=
  (dats m 0 c).arrAt_eq_of_cover 12 (outArr m c) (fun t _ => flushed12 m c t) cover12

end Cert.KernelIdeal.ArrayValue
-- ==== Proof.TakeFill.lean ====
/-
  Taking rows of the node features by edge endpoint.

  The kernel's program takes rows of h by an index vector r (one endpoint per edge) in the "fill" manner: an index
  below zero is first shifted up by 50000; then, where the shifted index lies in 0‥49999 the row is the gathered one and
  elsewhere a fill pattern. When every index lies in 0‥49999 already, nothing is shifted and the range test holds
  everywhere, so the result is the plain gather at the shifted index vector — the array the reference computes.
  The admissible inputs have every entry of edge_index in 0‥49999 (the precondition's last two conjuncts), hence both
  of its rows, the edges' first and second endpoints.
-/
import proofs.«421546_j35570919145942_1_alg».proof.Defs
import proofs.«421546_j35570919145942_1_alg».proof.Proof.Gen.KernelIdeal
import proofs.«421546_j35570919145942_1_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.TakeFill

open Cert.KernelIdeal Cert.KernelIdeal.Facts₀ Cert.KernelIdeal.Facts Idealize.ShloMosaic Idealize.ShloMosaic.ValueIdx

/-- Row `j` (0: first endpoints, 1: second endpoints) of edge_index as a vector of 800000 indices. -/
def endpoints0 (a2 : IVec S2x800000 32) : IVec S800000 32 :=
  shapeCast S800000 (extractStridedSlice S1x800000 ![0, 0] a2 slices_S2x800000_S1x800000_0_0) shapeCasts_S1x800000_S800000
def endpoints1 (a2 : IVec S2x800000 32) : IVec S800000 32 :=
  shapeCast S800000 (extractStridedSlice S1x800000 ![1, 0] a2 slices_S2x800000_S1x800000_1_0) shapeCasts_S1x800000_S800000

/-- The index vector after the shift of negative entries, as a column. -/
def shifted (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The rows of `h` taken in the "fill" manner. -/
def takeFill (h : FVec Ideal S50000x128 .f32) (r : IVec S800000 32) : FVec Ideal S800000x128 .f32 :=
  select
    (broadcastInDim S800000x128 ![0] bcast_S800000_S800000x128_0
      (Host.reduce IntOp.andi
        (andi (cmpi .sge (shifted r) (broadcastInDim S800000x1 ![] bcast_S_S800000x1 (constantI S_ 32 0#32)))
          (cmpi .sle (shifted r)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 h (shifted r))
    (broadcastInDim S800000x128 ![] bcast_S_S800000x128 (constant S_ .f32 0x7FC00000#32))

/-- The scalar shape has one index. -/
instance subsingleton_scalar_idx : Subsingleton Cert.Pre_finite_inputs.S_.Idx := ⟨fun a b => funext fun d => d.elim0⟩

/-- The precondition's last two conjuncts, decoded: every entry of the [2, 800000] index array lies in 0‥49999, signed. -/
theorem all_in_range
    (a0 : FVec Ideal Cert.Pre_finite_inputs.S50000x128 .f32) (a1 : FVec Ideal Cert.Pre_finite_inputs.S50000x3 .f32)
    (a2 : IVec Cert.Pre_finite_inputs.S2x800000 32) (a3 : FVec Ideal Cert.Pre_finite_inputs.S800000x3 .f32)
    (a4 : FVec Ideal Cert.Pre_finite_inputs.S800000x1 .f32) (a5 : FVec Ideal Cert.Pre_finite_inputs.S50000x1 .f32)
    (a6 : FVec Ideal Cert.Pre_finite_inputs.S800000x1 .f32) (a7 : FVec Ideal Cert.Pre_finite_inputs.S257x128 .f32)
    (a8 : FVec Ideal Cert.Pre_finite_inputs.S128 .f32) (a9 : FVec Ideal Cert.Pre_finite_inputs.S128x128 .f32)
    (a10 : FVec Ideal Cert.Pre_finite_inputs.S128 .f32) (a11 : FVec Ideal Cert.Pre_finite_inputs.S128x1 .f32)
    (h : Cert.Pre_finite_inputs.fn (F := Ideal) a0 a1 a2 a3 a4 a5 a6 a7 a8 a9 a10 a11 = fun _ => 1#1)
    (j : Cert.Pre_finite_inputs.S2x800000.Idx) : 0 ≤ (a2 j).toInt ∧ (a2 j).toInt < 50000 := by
  have e := congrFun h ix0
  simp only [Cert.Pre_finite_inputs.fn, Cert.Pre_finite_inputs.fn_part1, Cert.Pre_finite_inputs.fn_part2,
    Cert.Pre_finite_inputs.fn_part3] at e
  -- the whole conjunction is 1: so are its last conjunct and, of what remains, the last again
  obtain ⟨e12, e3⟩ := IntOp.andi_eq_one.1 e
  obtain ⟨-, e2⟩ := IntOp.andi_eq_one.1 e12
  -- a reduce-AND over the whole array that is 1 met a 1 at every index
  have g2 := Host.reduce_andi_all _ _ _ _ _ e2 j
  have g3 := Host.reduce_andi_all _ _ _ _ _ e3 j
  -- at an index the compare is the compare of the entry with the constant
  have c2 : IntOp.cmpi .sge (a2 j) 0#32 = 1#1 := g2
  have c3 : IntOp.cmpi .slt (a2 j) 50000#32 = 1#1 := g3
  have s2 := IntOp.cmpi_sge.1 c2
  have s3 := IntOp.cmpi_slt.1 c3
  rw [show (0#32 : BitVec 32).toInt = 0 from by decide] at s2
  rw [show (50000#32 : BitVec 32).toInt = 50000 from by decide] at s3
  exact ⟨s2, s3⟩

/-- Entry (ρ, i) of the [2, 800000] index array. -/
abbrev entry (ρ : Fin 2) (i : S800000.Idx) : S2x800000.Idx := ix2 ρ ⟨(i 0).val, (i 0).isLt⟩

/-- The first endpoint of edge i is entry (0, i): the slice keeps row 0, the cast keeps the row-major position. -/
theorem endpoints0_apply (a2 : IVec S2x800000 32) (i : S800000.Idx) : endpoints0 a2 i = a2 (entry 0 i) := by
  unfold endpoints0
  refine (shapeCast_apply _ shapeCasts_S1x800000_S800000 i
    (ix2 (n0 := 1) (n1 := 800000) ⟨0, Nat.one_pos⟩ ⟨(i 0).val, (i 0).isLt⟩) ?_).trans ?_
  · rewrite [Shape.rowMajor_val_two, Shape.rowMajor_val_one]
    show 0 * 800000 + (i 0).val = (i 0).val
    omega
  · exact extractStridedSlice_apply ![0, 0] a2 slices_S2x800000_S1x800000_0_0 _ (entry 0 i) (fun a => match a with
      | ⟨0, _⟩ => by show (0 : Nat) = 0 + 0; omega
      | ⟨1, _⟩ => by show (i 0).val = 0 + (i 0).val; omega)

/-- The second endpoint of edge i is entry (1, i). -/
theorem endpoints1_apply (a2 : IVec S2x800000 32) (i : S800000.Idx) : endpoints1 a2 i = a2 (entry 1 i) := by
  unfold endpoints1
  refine (shapeCast_apply _ shapeCasts_S1x800000_S800000 i
    (ix2 (n0 := 1) (n1 := 800000) ⟨0, Nat.one_pos⟩ ⟨(i 0).val, (i 0).isLt⟩) ?_).trans ?_
  · rewrite [Shape.rowMajor_val_two, Shape.rowMajor_val_one]
    show 0 * 800000 + (i 0).val = (i 0).val
    omega
  · exact extractStridedSlice_apply ![1, 0] a2 slices_S2x800000_S1x800000_1_0 _ (entry 1 i) (fun a => match a with
      | ⟨0, _⟩ => by show (1 : Nat) = 1 + 0; omega
      | ⟨1, _⟩ => by show (i 0).val = 0 + (i 0).val; omega)

/-- With every index nonnegative nothing is shifted: the column at (i, 0) is the index vector at i. -/
theorem shifted_apply (r : IVec S800000 32) (hr : ∀ i : S800000.Idx, 0 ≤ (r i).toInt ∧ (r i).toInt < 50000)
    (y : S800000x1.Idx) : shifted r y = r (ix1 ⟨(y 0).val, idx2_lt0 y⟩) := by
  unfold shifted
  refine (broadcastInDim_apply ![0] bcast_S800000_S800000x1_0 _ y (ix1 ⟨(y 0).val, idx2_lt0 y⟩) (fun a => match a with
    | ⟨0, _⟩ => by
      show (y 0).val = if (800000 : Nat) = 1 then 0 else (y 0).val
      rw [if_neg (by decide)])).trans ?_
  rw [select_apply]
  -- the test "index below zero" fails, so the select takes its last branch
  have hc : cmpi .slt r (broadcastInDim S800000 ![] bcast_S_S800000 (constantI S_ 32 0#32))
      (ix1 ⟨(y 0).val, idx2_lt0 y⟩) = 0#1 := by
    apply eq_zero_of_ne_one
    intro hc
    have hlt := IntOp.cmpi_slt.1 (show IntOp.cmpi .slt (r (ix1 ⟨(y 0).val, idx2_lt0 y⟩)) 0#32 = 1#1 from hc)
    rw [show (0#32 : BitVec 32).toInt = 0 from by decide] at hlt
    have h0 := (hr (ix1 ⟨(y 0).val, idx2_lt0 y⟩)).1
    omega
  rw [hc, select_zero]

/-- A left fold by AND over one-bit words that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- With every index in 0‥49999 the "fill" take is the plain gather at the shifted index vector. -/
theorem takeFill_eq_gather (h : FVec Ideal S50000x128 .f32) (r : IVec S800000 32)
    (hr : ∀ i : S800000.Idx, 0 ≤ (r i).toInt ∧ (r i).toInt < 50000) :
    takeFill h r = Host.gather gather_S50000x128_S800000x1_S800000x128_1_0_n_n_0_1_1128 h (shifted r) := by
  unfold takeFill
  -- the range test holds at every entry of the shifted column
  have hX : andi (cmpi .sge (shifted r) (broadcastInDim S800000x1 ![] bcast_S_S800000x1 (constantI S_ 32 0#32)))
      (cmpi .sle (shifted r)
        (broadcastInDim S800000x1 ![0, 1] bcast_S1x1_S800000x1_0_1
          (broadcastInDim S1x1 ![1] bcast_S1_S1x1_1 (constantI S1 32 49999#32)))) = fun _ => 1#1 := by
    funext y
    have hy := hr (ix1 ⟨(y 0).val, idx2_lt0 y⟩)
    rw [← shifted_apply r hr y] at hy
    obtain ⟨h0, h1⟩ := hy
    refine IntOp.andi_eq_one.2 ⟨?_, ?_⟩
    · show IntOp.cmpi .sge (shifted r y) 0#32 = 1#1
      rw [IntOp.cmpi_sge, show (0#32 : BitVec 32).toInt = 0 from by decide]
      exact h0
    · show IntOp.cmpi .sle (shifted r y) 49999#32 = 1#1
      rw [IntOp.cmpi_sle, show (49999#32 : BitVec 32).toInt = 49999 from by decide]
      omega
  rw [hX]
  -- so its reduce-AND along the unit axis is 1 at every row
  have hR : Host.reduce IntOp.andi (fun _ : S800000x1.Idx => (1#1 : BitVec 1)) (constantI S_ 1 1#1)
      reducesTo_S800000x1_S800000_d1 h_S_ = fun _ => 1#1 := by
    funext k
    rw [Host.reduce_eq_foldl]
    exact foldl_andi_ones _ (fun _ => rfl) _
  rw [hR]
  -- and the select on a mask of ones is its first branch
  funext y
  rw [select_apply]
  exact select_one _ _

/-- Under the precondition every first endpoint lies in 0‥49999. -/
theorem endpoints0_range (m : (ℓ : Loc nD τ sig) → Buf (Elt Ideal) ℓ) (hpre : Cert.Pre_KernelIdeal m) (c : Dev nD)
    (i : S800000.Idx) :
    0 ≤ (endpoints0 (m ((c.tc : Thread nD τ).loc main_arg2)) i).toInt
      ∧ (endpoints0 (m ((c.tc : Thread nD τ).loc main_arg2)) i).toInt < 50000 := by
  rw [endpoints0_apply]
  exact all_in_range _ _ _ _ _ _ _ _ _ _ _ _ (hpre c) _

/-- Under the precondition every second endpoint lies in 0‥49999. -/
theorem endpoints1_range (m : (ℓ : Loc nD τ sig) → Buf (Elt Ideal) ℓ) (hpre : Cert.Pre_KernelIdeal m) (c : Dev nD)
    (i : S800000.Idx) :
    0 ≤ (endpoints1 (m ((c.tc : Thread nD τ).loc main_arg2)) i).toInt
      ∧ (endpoints1 (m ((c.tc : Thread nD τ).loc main_arg2)) i).toInt < 50000 := by
  rw [endpoints1_apply]
  exact all_in_range _ _ _ _ _ _ _ _ _ _ _ _ (hpre c) _

end Cert.KernelIdeal.TakeFill
-- ==== Proof.HostSide.lean ====
/-
  What the region finds in the buffers the host operations before it have written.

  Before the one kernel region the program takes the two endpoint rows of edge_index, takes the rows of h at the first
  and at the second endpoints (in the "fill" manner of TakeFill), cuts W1 into its row blocks 0‥127, 128‥255 and 256, and
  reshapes the two biases to one row. Each of these buffers, as the region finds it, is that operation's value of the
  arguments; the row blocks and the biases are read at an entry.
-/
import proofs.«421546_j35570919145942_1_alg».proof.Proof.Gen.KernelIdeal.Frame
import proofs.«421546_j35570919145942_1_alg».proof.Proof.TakeFill
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Cert.KernelIdeal.TakeFill Idealize.ShloMosaic Idealize.ShloMosaic.TcCoe Idealize.SL.Sem
open Idealize.ShloMosaic.ValueIdx

variable (m : (ℓ : Loc nD τ sig) → Buf (Elt Ideal) ℓ)

/-- Two transports along type equations compose … -/
theorem cast_cast' {α β γ : Sort _} (ha : α = β) (hb : β = γ) (a : α) : cast hb (cast ha a) = cast (ha.trans hb) a :=
  eq_of_heq ((cast_heq hb (cast ha a)).trans ((cast_heq ha a).trans (cast_heq (ha.trans hb) a).symm))
/-- … and a transport along an equation of a type with itself is the identity. -/
theorem cast_self' {α : Sort _} (h : α = α) (a : α) : cast h a = a := eq_of_heq (cast_heq h a)

/-- The first endpoints, as the region (and the operations after it) find them. -/
theorem V_v1 (c : Dev nD) : V m c main_v1 = endpoints0 (m ((c.tc : Thread nD τ).loc main_arg2)) := by
  -- the buffer after the host operations is the recast of the slice of row 0
  dsimp only [Gen.V, Gen.V0]
  simp only [Gen.hostOps0, Gen.hostOps0_1, Gen.hostOps0_2, Gen.hostOps0_3, List.flatten_cons, List.flatten_nil,
    List.append_nil, List.cons_append, List.nil_append]
  after_results
  all_goals rfl

set_option maxRecDepth 16384 in
/-- The rows of h at the first endpoints. -/
theorem V_v4 (c : Dev nD) :
    V m c main_v4 = takeFill (m ((c.tc : Thread nD τ).loc main_arg0)) (endpoints0 (m ((c.tc : Thread nD τ).loc main_arg2))) := by
  -- the buffer after the host operations is their composed value of the arguments
  dsimp only [Gen.V, Gen.V0]
  simp only [Gen.hostOps0, Gen.hostOps0_1, Gen.hostOps0_2, Gen.hostOps0_3, List.flatten_cons, List.flatten_nil,
    List.append_nil, List.cons_append, List.nil_append]
  after_results_simp
  -- the transports between a buffer's type and its value's type are identities
  simp only [cast_cast', cast_self']
  -- what is left is the "fill" take of the endpoint row, spelled out
  rfl

set_option maxRecDepth 16384 in
/-- The rows of h at the second endpoints. -/
theorem V_v5 (c : Dev nD) :
    V m c main_v5 = takeFill (m ((c.tc : Thread nD τ).loc main_arg0)) (endpoints1 (m ((c.tc : Thread nD τ).loc main_arg2))) := by
  -- the buffer after the host operations is their composed value of the arguments
  dsimp only [Gen.V, Gen.V0]
  simp only [Gen.hostOps0, Gen.hostOps0_1, Gen.hostOps0_2, Gen.hostOps0_3, List.flatten_cons, List.flatten_nil,
    List.append_nil, List.cons_append, List.nil_append]
  after_results_simp
  -- the transports between a buffer's type and its value's type are identities
  simp only [cast_cast', cast_self']
  -- what is left is the "fill" take of the endpoint row, spelled out
  rfl

/-- Rows 0‥127 of W1. -/
theorem V_v6 (c : Dev nD) (r q : Fin 128) :
    (V m c main_v6 : Vec Ideal S128x128 .f32) (ix2 r q)
      = (m ((c.tc : Thread nD τ).loc main_arg7) : Vec Ideal S257x128 .f32) (ix2 (⟨r.val, by omega⟩ : Fin 257) q) := by
  -- the buffer is the slice of W1 at offset (0, 0)
  have e : (V m c main_v6 : Vec Ideal S128x128 .f32)
      = extractStridedSlice S128x128 ![0, 0] (m ((c.tc : Thread nD τ).loc main_arg7) : Vec Ideal S257x128 .f32)
          Facts₀.slices_S257x128_S128x128_0_0 := by
    dsimp only [Gen.V, Gen.V0]
    simp only [Gen.hostOps0, Gen.hostOps0_1, Gen.hostOps0_2, Gen.hostOps0_3, List.flatten_cons, List.flatten_nil,
      List.append_nil, List.cons_append, List.nil_append]
    after_results
  rw [e]
  -- a slice at (r, q) reads the operand at (0 + r, 0 + q)
  exact extractStridedSlice_apply (s := S257x128) (t := S128x128) ![0, 0]
    (m ((c.tc : Thread nD τ).loc main_arg7) : Vec Ideal S257x128 .f32) Facts₀.slices_S257x128_S128x128_0_0
    (ix2 r q) (ix2 (⟨r.val, by omega⟩ : Fin 257) q) (fun a => match a with
    | ⟨0, _⟩ => by show r.val = 0 + r.val; omega
    | ⟨1, _⟩ => by show q.val = 0 + q.val; omega)

/-- Rows 128‥255 of W1. -/
theorem V_v7 (c : Dev nD) (r q : Fin 128) :
    (V m c main_v7 : Vec Ideal S128x128 .f32) (ix2 r q)
      = (m ((c.tc : Thread nD τ).loc main_arg7) : Vec Ideal S257x128 .f32) (ix2 (⟨128 + r.val, by omega⟩ : Fin 257) q) := by
  -- the buffer is the slice of W1 at offset (128, 0)
  have e : (V m c main_v7 : Vec Ideal S128x128 .f32)
      = extractStridedSlice S128x128 ![128, 0] (m ((c.tc : Thread nD τ).loc main_arg7) : Vec Ideal S257x128 .f32)
          Facts₀.slices_S257x128_S128x128_128_0 := by
    dsimp only [Gen.V, Gen.V0]
    simp only [Gen.hostOps0, Gen.hostOps0_1, Gen.hostOps0_2, Gen.hostOps0_3, List.flatten_cons, List.flatten_nil,
      List.append_nil, List.cons_append, List.nil_append]
    after_results
  rw [e]
  -- a slice at (r, q) reads the operand at (128 + r, 0 + q)
  exact extractStridedSlice_apply (s := S257x128) (t := S128x128) ![128, 0]
    (m ((c.tc : Thread nD τ).loc main_arg7) : Vec Ideal S257x128 .f32) Facts₀.slices_S257x128_S128x128_128_0
    (ix2 r q) (ix2 (⟨128 + r.val, by omega⟩ : Fin 257) q) (fun a => match a with
    | ⟨0, _⟩ => by show 128 + r.val = 128 + r.val; omega
    | ⟨1, _⟩ => by show q.val = 0 + q.val; omega)

/-- Row 256 of W1. -/
theorem V_v8 (c : Dev nD) (q : Fin 128) :
    (V m c main_v8 : Vec Ideal S1x128 .f32) (ix2 0 q)
      = (m ((c.tc : Thread nD τ).loc main_arg7) : Vec Ideal S257x128 .f32) (ix2 (⟨256, by omega⟩ : Fin 257) q) := by
  -- the buffer is the slice of W1 at offset (256, 0)
  have e : (V m c main_v8 : Vec Ideal S1x128 .f32)
      = extractStridedSlice S1x128 ![256, 0] (m ((c.tc : Thread nD τ).loc main_arg7) : Vec Ideal S257x128 .f32)
          Facts₀.slices_S257x128_S1x128_256_0 := by
    dsimp only [Gen.V, Gen.V0]
    simp only [Gen.hostOps0, Gen.hostOps0_1, Gen.hostOps0_2, Gen.hostOps0_3, List.flatten_cons, List.flatten_nil,
      List.append_nil, List.cons_append, List.nil_append]
    after_results
  rw [e]
  -- a slice at (0, q) reads the operand at (256 + 0, 0 + q)
  exact extractStridedSlice_apply (s := S257x128) (t := S1x128) ![256, 0]
    (m ((c.tc : Thread nD τ).loc main_arg7) : Vec Ideal S257x128 .f32) Facts₀.slices_S257x128_S1x128_256_0
    (ix2 0 q) (ix2 (⟨256, by omega⟩ : Fin 257) q) (fun a => match a with
    | ⟨0, _⟩ => by show (256 : Nat) = 256 + 0; omega
    | ⟨1, _⟩ => by show q.val = 0 + q.val; omega)

/-- The first bias as one row. -/
theorem V_v9 (c : Dev nD) (q : Fin 128) :
    (V m c main_v9 : Vec Ideal S1x128 .f32) (ix2 0 q) = (m ((c.tc : Thread nD τ).loc main_arg8) : Vec Ideal S128 .f32) (ix1 q) := by
  -- the buffer is the bias recast to one row
  have e : (V m c main_v9 : Vec Ideal S1x128 .f32)
      = shapeCast S1x128 (m ((c.tc : Thread nD τ).loc main_arg8) : Vec Ideal S128 .f32) Facts₀.shapeCasts_S128_S1x128 := by
    dsimp only [Gen.V, Gen.V0]
    simp only [Gen.hostOps0, Gen.hostOps0_1, Gen.hostOps0_2, Gen.hostOps0_3, List.flatten_cons, List.flatten_nil,
      List.append_nil, List.cons_append, List.nil_append]
    after_results
    all_goals rfl
  rw [e]
  -- a recast keeps the row-major position: (0, q) is position q
  exact shapeCast_apply (s := S128) (t := S1x128) (m ((c.tc : Thread nD τ).loc main_arg8) : Vec Ideal S128 .f32)
    Facts₀.shapeCasts_S128_S1x128 (ix2 0 q) (ix1 q)
    (by rewrite [Shape.rowMajor_val_one, Shape.rowMajor_val_two]; show q.val = 0 * 128 + q.val; omega)

/-- The second bias as one row. -/
theorem V_v10 (c : Dev nD) (q : Fin 128) :
    (V m c main_v10 : Vec Ideal S1x128 .f32) (ix2 0 q) = (m ((c.tc : Thread nD τ).loc main_arg10) : Vec Ideal S128 .f32) (ix1 q) := by
  -- the buffer is the bias recast to one row
  have e : (V m c main_v10 : Vec Ideal S1x128 .f32)
      = shapeCast S1x128 (m ((c.tc : Thread nD τ).loc main_arg10) : Vec Ideal S128 .f32) Facts₀.shapeCasts_S128_S1x128 := by
    dsimp only [Gen.V, Gen.V0]
    simp only [Gen.hostOps0, Gen.hostOps0_1, Gen.hostOps0_2, Gen.hostOps0_3, List.flatten_cons, List.flatten_nil,
      List.append_nil, List.cons_append, List.nil_append]
    after_results
    all_goals rfl
  rw [e]
  -- a recast keeps the row-major position: (0, q) is position q
  exact shapeCast_apply (s := S128) (t := S1x128) (m ((c.tc : Thread nD τ).loc main_arg10) : Vec Ideal S128 .f32)
    Facts₀.shapeCasts_S128_S1x128 (ix2 0 q) (ix1 q)
    (by rewrite [Shape.rowMajor_val_one, Shape.rowMajor_val_two]; show q.val = 0 * 128 + q.val; omega)

end Cert.KernelIdeal.HostSide
-- ==== Proof.Tail.lean ====
/-
  The operations after the kernel region, as one function.

  After the region the program adds each edge's three numbers into the row of its first endpoint (a scatter-add into a
  zero 50000 × 3 array), divides by 100, adds the coordinates and multiplies by the node mask. The result buffer after
  the run is this function (`tailK`) of the coordinates, the node mask, the first endpoints as the region found them,
  and the region's output array after its last grid point; nothing of it is opened here.
-/
import proofs.«421546_j35570919145942_1_alg».proof.Proof.Gen.KernelIdeal.Frame
import Idealize.ShloMosaic.Lib.StableHlo.Run
import Idealize.ShloMosaic.PureOps.Ideal
import Idealize.ShloMosaic.Lib.Pipeline.Value

noncomputable section

namespace Cert.KernelIdeal.Tail

open Cert.KernelIdeal Cert.KernelIdeal.Gen
open Idealize.ShloMosaic Idealize.ShloMosaic.TcCoe Idealize.SL.Sem
open Idealize.ShloMosaic.Pipeline (Dat)

/-- The ten operations after the region as one function of the coordinates, the node mask, the first endpoints and the
    per-edge updates. -/
def tailK (coord : FVec Ideal S50000x3 .f32) (nmask : FVec Ideal S50000x1 .f32) (r : IVec S800000 32)
    (trans : FVec Ideal S800000x3 .f32) : FVec Ideal S50000x3 .f32 :=
  mulf
    (addf coord
      (Host.divf
        (Host.scatterAdd scatter_S50000x3_S800000x1_S800000x3_1_0_0_1
          (broadcastInDim S50000x3 ![] Facts₀.bcast_S_S50000x3 (constant (F := Ideal) S_ .f32 0x00000000#32))
          (broadcastInDim S800000x1 ![0] Facts₀.bcast_S800000_S800000x1_0 r) trans)
        (broadcastInDim S50000x3 ![] Facts₀.bcast_S_S50000x3 (constant (F := Ideal) S_ .f32 0x42C80000#32))))
    (broadcastInDim S50000x3 ![0, 1] Facts₀.bcast_S50000x1_S50000x3_0_1 nmask)

variable (m : (ℓ : Loc nD τ sig) → Buf (Elt Ideal) ℓ)

/-- The result buffer as the operations after the region leave it. -/
theorem tail_value (c : Dev nD) :
    Pipeline.afterTail₀ cfgs (dats m) 0 (V0 m) [hostOps1] c main_v19
      = tailK (m ((c.tc : Thread nD τ).loc main_arg1)) (m ((c.tc : Thread nD τ).loc main_arg5)) (V m c main_v1)
          ((dats m 0 c).arrAt 12 cfg0.N) := by
  unfold Pipeline.afterTail₀
  -- the ten operations composed into one term over the contents they start from
  generalize hW : Pipeline.withArrays (cfgs 0).spec c (V0 m c) (fun w => (dats m 0 c).arrAt w (cfgs 0).N) = W
  simp only [List.flatten_cons, List.flatten_nil, List.append_nil]
  after_results_simp
  subst hW
  -- the four buffers that term reads: the first endpoints, the coordinates and the node mask are no array of the
  -- region, so they are as the region found them; the region's output is its array after the last grid point
  rw [Pipeline.withArrays_of_ne _ c (V0 m c) _ main_v1 (by exact (by decide : ∀ w, Pipeline.arrRef spec0 w ≠ main_v1)),
    Pipeline.withArrays_of_ne _ c (V0 m c) _ main_arg1 (by exact (by decide : ∀ w, Pipeline.arrRef spec0 w ≠ main_arg1)),
    Pipeline.withArrays_of_ne _ c (V0 m c) _ main_arg5 (by exact (by decide : ∀ w, Pipeline.arrRef spec0 w ≠ main_arg5)),
    Pipeline.withArrays_arr spec0 launch0.win.arr_inj c _ _ 12]
  -- the coordinates and the node mask are written by no operation before the region
  have e1 : V0 m c (Proc.devRef .tc main_arg1) = m ((c.tc : Thread nD τ).loc main_arg1) := V_main_arg1 m c
  have e5 : V0 m c (Proc.devRef .tc main_arg5) = m ((c.tc : Thread nD τ).loc main_arg5) := V_main_arg5 m c
  have ev : V m c main_v1 = V0 m c (Proc.devRef .tc main_v1) := rfl
  rw [e1, e5, ev]
  -- both sides are now the same function of the same four arrays
  generalize V0 m c (Proc.devRef .tc main_v1) = r
  generalize (dats m 0 c).arrAt 12 (cfgs 0).N = t
  generalize m ((c.tc : Thread nD τ).loc main_arg1) = a
  generalize m ((c.tc : Thread nD τ).loc main_arg5) = b
  rfl

end Cert.KernelIdeal.Tail
-- ==== Proof.RefRead.lean ====
/-
  The reference's masked, scaled coordinate differences (its value `trans`, an 800000 × 3 array) at one entry.

  At edge e and component d it is coord_diff(e, d) · ( Σ_k x2(e, k) · W3(k, 0) ) · edge_mask(e, 0), with the two hidden
  layers as in `EdgeSpec`; the first layer is one product of the joined row (h[row e], h[col e], edge_attr e), 257
  numbers, with W1. Read through the joined row's three pieces it is `EdgeSpec.head (EdgeSpec.layer1 …)` of the two
  gathered rows, the edge attribute and the row blocks 0‥127, 128‥255, 256 of W1.
-/
import proofs.«421546_j35570919145942_1_alg».proof.Proof.Gen.ReferenceIdeal.Read
import proofs.«421546_j35570919145942_1_alg».proof.Proof.EdgeSpec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefRead

open Cert.ReferenceIdeal Cert.ReferenceIdeal.Read Idealize.ShloMosaic Idealize.ShloMosaic.ValueIdx Cert.EdgeSpec

/-- The joined row at a column below 128 is the first gathered row at that column. -/
theorem v18_left (x0 : FVec Ideal S50000x128 .f32) (x2 : IVec S2x800000 32) (x4 : FVec Ideal S800000x1 .f32)
    (e : Fin 800000) (r : Fin 128) :
    val_main_v18 (F := Ideal) x0 x2 x4 (ix2 e (⟨r.val, by omega⟩ : Fin 257)) = val_main_v10 (F := Ideal) x0 x2 (ix2 e r) := by
  unfold val_main_v18
  generalize val_main_v10 (F := Ideal) x0 x2 = y0
  generalize val_main_v17 (F := Ideal) x0 x2 = y1
  refine concatenate_apply_piece (t := S800000x257) 1 [⟨S800000x128, y0⟩, ⟨S800000x128, y1⟩, ⟨S800000x1, x4⟩]
    _ (ix2 e (⟨r.val, by omega⟩ : Fin 257))
    0 (by show (_ : Nat) < 3; omega) S800000x128 y0 rfl rfl 0 rfl (ix2 e r) ?_ ?_
  · intro b hb
    match b with
    | ⟨0, _⟩ => rfl
    | ⟨1, _⟩ => exact absurd rfl hb
  · show 0 + r.val = r.val
    omega

/-- The joined row at column 128 + r is the second gathered row at column r. -/
theorem v18_mid (x0 : FVec Ideal S50000x128 .f32) (x2 : IVec S2x800000 32) (x4 : FVec Ideal S800000x1 .f32)
    (e : Fin 800000) (r : Fin 128) :
    val_main_v18 (F := Ideal) x0 x2 x4 (ix2 e (⟨128 + r.val, by omega⟩ : Fin 257)) = val_main_v17 (F := Ideal) x0 x2 (ix2 e r) := by
  unfold val_main_v18
  generalize val_main_v10 (F := Ideal) x0 x2 = y0
  generalize val_main_v17 (F := Ideal) x0 x2 = y1
  refine concatenate_apply_piece (t := S800000x257) 1 [⟨S800000x128, y0⟩, ⟨S800000x128, y1⟩, ⟨S800000x1, x4⟩]
    _ (ix2 e (⟨128 + r.val, by omega⟩ : Fin 257))
    1 (by show (_ : Nat) < 3; omega) S800000x128 y1 rfl rfl 128 rfl (ix2 e r) ?_ ?_
  · intro b hb
    match b with
    | ⟨0, _⟩ => rfl
    | ⟨1, _⟩ => exact absurd rfl hb
  · rfl

/-- The joined row's last column, 256, is the edge attribute. -/
theorem v18_last (x0 : FVec Ideal S50000x128 .f32) (x2 : IVec S2x800000 32) (x4 : FVec Ideal S800000x1 .f32)
    (e : Fin 800000) :
    val_main_v18 (F := Ideal) x0 x2 x4 (ix2 e (⟨256, by omega⟩ : Fin 257)) = x4 (ix2 e 0) := by
  unfold val_main_v18
  generalize val_main_v10 (F := Ideal) x0 x2 = y0
  generalize val_main_v17 (F := Ideal) x0 x2 = y1
  refine concatenate_apply_piece (t := S800000x257) 1 [⟨S800000x128, y0⟩, ⟨S800000x128, y1⟩, ⟨S800000x1, x4⟩]
    _ (ix2 e (⟨256, by omega⟩ : Fin 257))
    2 (by show (_ : Nat) < 3; omega) S800000x1 x4 rfl rfl 256 rfl (ix2 e 0) ?_ ?_
  · intro b hb
    match b with
    | ⟨0, _⟩ => rfl
    | ⟨1, _⟩ => exact absurd rfl hb
  · rfl

/-- The first activation: x · (1 / (1 + exp (−x))) is x · logistic x, the constant 0x3F800000 being the number one. -/
theorem v23_silu (x0 : FVec Ideal S50000x128 .f32) (x2 : IVec S2x800000 32) (x4 : FVec Ideal S800000x1 .f32)
    (x7 : FVec Ideal S257x128 .f32) (x8 : FVec Ideal S128 .f32) (i : S800000x128.Idx) :
    val_main_v23 (F := Ideal) x0 x2 x4 x7 x8 i = silu (val_main_v22 (F := Ideal) x0 x2 x4 x7 x8 i) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  generalize val_main_v22 (F := Ideal) x0 x2 x4 x7 x8 i = z
  simp only [Ideal.ofBits_def, Ideal.ofBits_one_f32, Ideal.mulf_def, Ideal.addf_def, Ideal.hostDivf_def,
    Ideal.hostUnary_exp_def, Ideal.hostNegf_def, Ideal.negf_def]
  rfl

/-- The first pre-activation at (e, q): the joined row of edge e times column q of W1, a sum of 257 products, plus b1 q. -/
theorem v22_cat (x0 : FVec Ideal S50000x128 .f32) (x2 : IVec S2x800000 32) (x4 : FVec Ideal S800000x1 .f32)
    (x7 : FVec Ideal S257x128 .f32) (x8 : FVec Ideal S128 .f32) (e : Fin 800000) (q : Fin 128) :
    val_main_v22 (F := Ideal) x0 x2 x4 x7 x8 (ix2 e q)
      = (∑ r : Fin 257, val_main_v18 (F := Ideal) x0 x2 x4 (ix2 e r) * x7 (ix2 r q)) + x8 (ix1 q) := by
  have el : ∀ k : Fin 257, lidx_main_v19 (ix2 e q) k = ix2 e k := fun k =>
    funext fun a => Fin.ext (by match a with | ⟨0, _⟩ => rfl | ⟨1, _⟩ => rfl)
  have er : ∀ k : Fin 257, ridx_main_v19 (ix2 e q) k = ix2 k q := fun k =>
    funext fun a => Fin.ext (by match a with | ⟨0, _⟩ => rfl | ⟨1, _⟩ => rfl)
  have e21 : idx_main_v21 (ix2 e q) = ix2 (0 : Fin 1) q :=
    funext fun a => Fin.ext (by match a with | ⟨0, _⟩ => rfl | ⟨1, _⟩ => rfl)
  have e20 : idx_main_v20 (ix2 (0 : Fin 1) q) = ix1 q :=
    funext fun a => Fin.ext (by match a with | ⟨0, _⟩ => rfl)
  rw [val_main_v22_apply, val_main_v19_apply, val_main_v21_apply, val_main_v20_apply, e21, e20]
  simp only [el, er, Ideal.addf_def]

/-- The first layer's output at (e, q): the 257-term sum split into the two blocks of 128 and the last term. -/
theorem v23_layer1 (x0 : FVec Ideal S50000x128 .f32) (x2 : IVec S2x800000 32) (x4 : FVec Ideal S800000x1 .f32)
    (x7 : FVec Ideal S257x128 .f32) (x8 : FVec Ideal S128 .f32) (e : Fin 800000) (q : Fin 128) :
    val_main_v23 (F := Ideal) x0 x2 x4 x7 x8 (ix2 e q)
      = layer1 (fun r => val_main_v10 (F := Ideal) x0 x2 (ix2 e r)) (fun r => val_main_v17 (F := Ideal) x0 x2 (ix2 e r))
          (x4 (ix2 e 0))
          (fun r q => x7 (ix2 (⟨r.val, by omega⟩ : Fin 257) q)) (fun r q => x7 (ix2 (⟨128 + r.val, by omega⟩ : Fin 257) q))
          (fun q => x7 (ix2 (⟨256, by omega⟩ : Fin 257) q)) (fun q => x8 (ix1 q)) q := by
  have hcat : val_main_v23 (F := Ideal) x0 x2 x4 x7 x8 (ix2 e q)
      = layer1cat (fun r : Fin 257 => val_main_v18 (F := Ideal) x0 x2 x4 (ix2 e r)) (fun r q => x7 (ix2 r q))
          (fun q => x8 (ix1 q)) q := by
    rw [v23_silu, v22_cat]
    rfl
  rw [hcat, layer1cat_eq]
  simp only [v18_left, v18_mid, v18_last]

/-- The second activation, likewise x · logistic x. -/
theorem v28_silu (x0 : FVec Ideal S50000x128 .f32) (x2 : IVec S2x800000 32) (x4 : FVec Ideal S800000x1 .f32)
    (x7 : FVec Ideal S257x128 .f32) (x8 : FVec Ideal S128 .f32) (x9 : FVec Ideal S128x128 .f32) (x10 : FVec Ideal S128 .f32)
    (i : S800000x128.Idx) :
    val_main_v28 (F := Ideal) x0 x2 x4 x7 x8 x9 x10 i = silu (val_main_v27 (F := Ideal) x0 x2 x4 x7 x8 x9 x10 i) := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply]
  generalize val_main_v27 (F := Ideal) x0 x2 x4 x7 x8 x9 x10 i = z
  simp only [Ideal.ofBits_def, Ideal.ofBits_one_f32, Ideal.mulf_def, Ideal.addf_def, Ideal.hostDivf_def,
    Ideal.hostUnary_exp_def, Ideal.hostNegf_def, Ideal.negf_def]
  rfl

/-- The second pre-activation at (e, k): the first layer's row of edge e times column k of W2, plus b2 k. -/
theorem v27_sum (x0 : FVec Ideal S50000x128 .f32) (x2 : IVec S2x800000 32) (x4 : FVec Ideal S800000x1 .f32)
    (x7 : FVec Ideal S257x128 .f32) (x8 : FVec Ideal S128 .f32) (x9 : FVec Ideal S128x128 .f32) (x10 : FVec Ideal S128 .f32)
    (e : Fin 800000) (k : Fin 128) :
    val_main_v27 (F := Ideal) x0 x2 x4 x7 x8 x9 x10 (ix2 e k)
      = (∑ q : Fin 128, val_main_v23 (F := Ideal) x0 x2 x4 x7 x8 (ix2 e q) * x9 (ix2 q k)) + x10 (ix1 k) := by
  have el : ∀ q : Fin 128, lidx_main_v24 (ix2 e k) q = ix2 e q := fun q =>
    funext fun a => Fin.ext (by match a with | ⟨0, _⟩ => rfl | ⟨1, _⟩ => rfl)
  have er : ∀ q : Fin 128, ridx_main_v24 (ix2 e k) q = ix2 q k := fun q =>
    funext fun a => Fin.ext (by match a with | ⟨0, _⟩ => rfl | ⟨1, _⟩ => rfl)
  have e26 : idx_main_v26 (ix2 e k) = ix2 (0 : Fin 1) k :=
    funext fun a => Fin.ext (by match a with | ⟨0, _⟩ => rfl | ⟨1, _⟩ => rfl)
  have e25 : idx_main_v25 (ix2 (0 : Fin 1) k) = ix1 k :=
    funext fun a => Fin.ext (by match a with | ⟨0, _⟩ => rfl)
  rw [val_main_v27_apply, val_main_v24_apply, val_main_v26_apply, val_main_v25_apply, e26, e25]
  simp only [el, er, Ideal.addf_def]

/-- The result at (e, d): the coordinate difference times the projection Σ_k x2(e, k) · W3(k, 0), times the edge mask;
    both broadcasts along the component axis read column 0. -/
theorem v33_sum (x0 : FVec Ideal S50000x128 .f32) (x2 : IVec S2x800000 32) (x3 : FVec Ideal S800000x3 .f32)
    (x4 x6 : FVec Ideal S800000x1 .f32) (x7 : FVec Ideal S257x128 .f32) (x8 : FVec Ideal S128 .f32)
    (x9 : FVec Ideal S128x128 .f32) (x10 : FVec Ideal S128 .f32) (x11 : FVec Ideal S128x1 .f32)
    (e : Fin 800000) (d : Fin 3) :
    val_main_v33 (F := Ideal) x0 x2 x3 x4 x6 x7 x8 x9 x10 x11 (ix2 e d)
      = (x3 (ix2 e d) * (∑ k : Fin 128, val_main_v28 (F := Ideal) x0 x2 x4 x7 x8 x9 x10 (ix2 e k) * x11 (ix2 k 0)))
          * x6 (ix2 e 0) := by
  have e30 : idx_main_v30 (ix2 e d) = ix2 e (0 : Fin 1) :=
    funext fun a => Fin.ext (by match a with | ⟨0, _⟩ => rfl | ⟨1, _⟩ => rfl)
  have e32 : idx_main_v32 (ix2 e d) = ix2 e (0 : Fin 1) :=
    funext fun a => Fin.ext (by match a with | ⟨0, _⟩ => rfl | ⟨1, _⟩ => rfl)
  have el : ∀ k : Fin 128, lidx_main_v29 (ix2 e (0 : Fin 1)) k = ix2 e k := fun k =>
    funext fun a => Fin.ext (by match a with | ⟨0, _⟩ => rfl | ⟨1, _⟩ => rfl)
  have er : ∀ k : Fin 128, ridx_main_v29 (ix2 e (0 : Fin 1)) k = ix2 k (0 : Fin 1) := fun k =>
    funext fun a => Fin.ext (by match a with | ⟨0, _⟩ => rfl | ⟨1, _⟩ => rfl)
  rw [val_main_v33_apply, val_main_v31_apply, val_main_v30_apply, val_main_v32_apply, e30, e32, val_main_v29_apply]
  simp only [el, er, Ideal.mulf_def]

/-- The reference's `trans` at edge `e`, component `d`: the per-edge function of the two gathered feature rows, the
    edge's attribute, coordinate difference and mask, and the weights, W1 read in its three row blocks. -/
theorem trans_apply (x0 : FVec Ideal S50000x128 .f32) (x2 : IVec S2x800000 32) (x3 : FVec Ideal S800000x3 .f32)
    (x4 x6 : FVec Ideal S800000x1 .f32) (x7 : FVec Ideal S257x128 .f32) (x8 : FVec Ideal S128 .f32)
    (x9 : FVec Ideal S128x128 .f32) (x10 : FVec Ideal S128 .f32) (x11 : FVec Ideal S128x1 .f32)
    (e : Fin 800000) (d : Fin 3) :
    val_main_v33 (F := Ideal) x0 x2 x3 x4 x6 x7 x8 x9 x10 x11 (ix2 e d)
      = head (layer1 (fun r => val_main_v10 (F := Ideal) x0 x2 (ix2 e r)) (fun r => val_main_v17 (F := Ideal) x0 x2 (ix2 e r))
            (x4 (ix2 e 0))
            (fun r q => x7 (ix2 (⟨r.val, by omega⟩ : Fin 257) q)) (fun r q => x7 (ix2 (⟨128 + r.val, by omega⟩ : Fin 257) q))
            (fun q => x7 (ix2 (⟨256, by omega⟩ : Fin 257) q)) (fun q => x8 (ix1 q)))
          (x3 (ix2 e d)) (x6 (ix2 e 0)) (fun q k => x9 (ix2 q k)) (fun k => x10 (ix1 k)) (fun k => x11 (ix2 k 0)) := by
  rw [v33_sum]
  simp only [v28_silu, v27_sum, v23_layer1]
  rfl

end Cert.ReferenceIdeal.RefRead
-- ==== Proof.Assembly.lean ====
/-
  The two programs compute one function.

  Kernel side. After its run the result buffer is the tail function (scatter-add by first endpoint, divide by 100, add
  the coordinates, multiply by the node mask) of the region's output array, and that array's entry (e, d) is the per-edge
  function of row e of what the region found: the rows of h taken at the two endpoints, the edge's attribute, coordinate
  difference and mask, and the weights, W1 in its three row blocks. Under the precondition every endpoint lies in
  0‥49999, so the "fill" take is the plain gather the reference makes.
  Reference side. Its result is the same tail function of its array `trans`, whose entry (e, d) is the same per-edge
  function, the first layer being one product of the joined row of 257 numbers with W1 — equal to the three-piece form by
  splitting that sum (EdgeSpec). So the two result buffers are one array of extended reals.
-/
import proofs.«421546_j35570919145942_1_alg».proof.Defs
import proofs.«421546_j35570919145942_1_alg».proof.Proof.Gen.Kernel.Frame
import proofs.«421546_j35570919145942_1_alg».proof.Proof.Gen.KernelIdeal.Frame
import proofs.«421546_j35570919145942_1_alg».proof.Proof.Gen.ReferenceIdeal.Run
import proofs.«421546_j35570919145942_1_alg».proof.Proof.Gen.ReferenceIdeal.Read
import proofs.«421546_j35570919145942_1_alg».proof.Proof.Gen.Pre_finite_inputs
import proofs.«421546_j35570919145942_1_alg».proof.Proof.KernelArray
import proofs.«421546_j35570919145942_1_alg».proof.Proof.HostSide
import proofs.«421546_j35570919145942_1_alg».proof.Proof.Tail
import proofs.«421546_j35570919145942_1_alg».proof.Proof.TakeFill
import proofs.«421546_j35570919145942_1_alg».proof.Proof.RefRead

noncomputable section

namespace Cert.KernelIdeal.Assembly

open Cert.KernelIdeal Cert.KernelIdeal.Gen Idealize.ShloMosaic Idealize.ShloMosaic.TcCoe Idealize.SL.Sem
open Idealize.ShloMosaic.ValueIdx Cert.EdgeSpec
open Cert.KernelIdeal.TakeFill Cert.KernelIdeal.ArrayValue Cert.KernelIdeal.HostSide Cert.KernelIdeal.Tail

/-! ## The reference's stages over the kernel-side terms (no array is opened: the operations are the same) -/

/-- The reference's rows of h at the first endpoints are the plain gather at the shifted first endpoints. -/
theorem gather0_ref (x0 : FVec Ideal S50000x128 .f32) (x2 : IVec S2x800000 32) :
    Host.gather gather_S50000x128_S800000x1_S800000x128_1_0_n_n_0_1_1128 x0 (shifted (endpoints0 x2))
      = Cert.ReferenceIdeal.Read.val_main_v10 (F := Ideal) x0 x2 := rfl

/-- The same at the second endpoints. -/
theorem gather1_ref (x0 : FVec Ideal S50000x128 .f32) (x2 : IVec S2x800000 32) :
    Host.gather gather_S50000x128_S800000x1_S800000x128_1_0_n_n_0_1_1128 x0 (shifted (endpoints1 x2))
      = Cert.ReferenceIdeal.Read.val_main_v17 (F := Ideal) x0 x2 := rfl

/-- The reference's result is the tail function of its `trans`. -/
theorem tail_ref (x0 : FVec Ideal S50000x128 .f32) (x1 : FVec Ideal S50000x3 .f32) (x2 : IVec S2x800000 32)
    (x3 : FVec Ideal S800000x3 .f32) (x4 : FVec Ideal S800000x1 .f32) (x5 : FVec Ideal S50000x1 .f32)
    (x6 : FVec Ideal S800000x1 .f32) (x7 : FVec Ideal S257x128 .f32) (x8 : FVec Ideal S128 .f32)
    (x9 : FVec Ideal S128x128 .f32) (x10 : FVec Ideal S128 .f32) (x11 : FVec Ideal S128x1 .f32) :
    tailK x1 x5 (endpoints0 x2) (Cert.ReferenceIdeal.Read.val_main_v33 (F := Ideal) x0 x2 x3 x4 x6 x7 x8 x9 x10 x11)
      = Cert.ReferenceIdeal.Read.val_main_v41 (F := Ideal) x0 x1 x2 x3 x4 x5 x6 x7 x8 x9 x10 x11 := rfl

variable (m : (ℓ : Loc nD τ sig) → Buf (Elt Ideal) ℓ)

/-! ## The arrays the region finds, by the buffers' names -/

theorem arr0_eq (c : Dev nD) : arr0 m c = V m c main_v4 := rfl
theorem arr1_eq (c : Dev nD) : arr1 m c = V m c main_v5 := rfl
theorem arr2_eq (c : Dev nD) : arr2 m c = V m c main_arg4 := rfl
theorem arr3_eq (c : Dev nD) : arr3 m c = V m c main_arg3 := rfl
theorem arr4_eq (c : Dev nD) : arr4 m c = V m c main_arg6 := rfl
theorem arr5_eq (c : Dev nD) : arr5 m c = V m c main_v6 := rfl
theorem arr6_eq (c : Dev nD) : arr6 m c = V m c main_v7 := rfl
theorem arr7_eq (c : Dev nD) : arr7 m c = V m c main_v8 := rfl
theorem arr8_eq (c : Dev nD) : arr8 m c = V m c main_v9 := rfl
theorem arr9_eq (c : Dev nD) : arr9 m c = V m c main_arg9 := rfl
theorem arr10_eq (c : Dev nD) : arr10 m c = V m c main_v10 := rfl
theorem arr11_eq (c : Dev nD) : arr11 m c = V m c main_arg11 := rfl

/-- Under the precondition the rows the region finds at the first endpoints are the reference's. -/
theorem rows0_ref (hpre : Cert.Pre_KernelIdeal m) (c : Dev nD) :
    arr0 m c = Cert.ReferenceIdeal.Read.val_main_v10 (F := Ideal) (m ((c.tc : Thread nD τ).loc main_arg0)) (m ((c.tc : Thread nD τ).loc main_arg2)) :=
  (arr0_eq m c).trans ((V_v4 m c).trans ((takeFill_eq_gather _ _ (endpoints0_range m hpre c)).trans (gather0_ref _ _)))

/-- And at the second endpoints. -/
theorem rows1_ref (hpre : Cert.Pre_KernelIdeal m) (c : Dev nD) :
    arr1 m c = Cert.ReferenceIdeal.Read.val_main_v17 (F := Ideal) (m ((c.tc : Thread nD τ).loc main_arg0)) (m ((c.tc : Thread nD τ).loc main_arg2)) :=
  (arr1_eq m c).trans ((V_v5 m c).trans ((takeFill_eq_gather _ _ (endpoints1_range m hpre c)).trans (gather1_ref _ _)))

/-- The region's output array is the reference's `trans`. -/
theorem out_ref (hpre : Cert.Pre_KernelIdeal m) (c : Dev nD) :
    outArr m c = Cert.ReferenceIdeal.Read.val_main_v33 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨e, d, rfl⟩ : ∃ (e : Fin 800000) (d : Fin 3), i = ix2 e d := ⟨i 0, i 1, eq_ix2 i⟩
  rw [outArr_apply]
  refine Eq.trans ?_ (Cert.ReferenceIdeal.RefRead.trans_apply _ _ _ _ _ _ _ _ _ _ e d).symm
  unfold edgeVal
  rw [rows0_ref m hpre c, rows1_ref m hpre c, arr2_eq, arr3_eq, arr4_eq, arr9_eq, arr11_eq,
    V_main_arg4, V_main_arg3, V_main_arg6, V_main_arg9, V_main_arg11]
  have e5 : (fun (r q : Fin 128) => arr5 m c (ix2 r q))
      = fun r q => ((m ((c.tc : Thread nD τ).loc main_arg7)) : Vec Ideal S257x128 .f32) (ix2 (⟨r.val, by omega⟩ : Fin 257) q) :=
    funext fun r => funext fun q => (congrFun (arr5_eq m c) _).trans (V_v6 m c r q)
  have e6 : (fun (r q : Fin 128) => arr6 m c (ix2 r q))
      = fun r q => ((m ((c.tc : Thread nD τ).loc main_arg7)) : Vec Ideal S257x128 .f32) (ix2 (⟨128 + r.val, by omega⟩ : Fin 257) q) :=
    funext fun r => funext fun q => (congrFun (arr6_eq m c) _).trans (V_v7 m c r q)
  have e7 : (fun q : Fin 128 => arr7 m c (ix2 0 q))
      = fun q => ((m ((c.tc : Thread nD τ).loc main_arg7)) : Vec Ideal S257x128 .f32) (ix2 (⟨256, by omega⟩ : Fin 257) q) :=
    funext fun q => (congrFun (arr7_eq m c) _).trans (V_v8 m c q)
  have e8 : (fun q : Fin 128 => arr8 m c (ix2 0 q)) = fun q => ((m ((c.tc : Thread nD τ).loc main_arg8)) : Vec Ideal S128 .f32) (ix1 q) :=
    funext fun q => (congrFun (arr8_eq m c) _).trans (V_v9 m c q)
  have e10 : (fun k : Fin 128 => arr10 m c (ix2 0 k)) = fun k => ((m ((c.tc : Thread nD τ).loc main_arg10)) : Vec Ideal S128 .f32) (ix1 k) :=
    funext fun k => (congrFun (arr10_eq m c) _).trans (V_v10 m c k)
  rw [e5, e6, e7, e8, e10]

/-- The kernel program's result buffer, as the operations after the region leave it, is the reference's result term
    of the same arguments. -/
theorem result_ref (hpre : Cert.Pre_KernelIdeal m) (c : Dev nD) :
    Pipeline.afterTail₀ cfgs (dats m) 0 (V0 m) [hostOps1] c main_v19
      = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [tail_value, final12, V_v1, out_ref m hpre c]
  exact tail_ref _ _ _ _ _ _ _ _ _ _ _ _

/-- The kernel program's run: the result at the reference's term of the arguments, the arguments unchanged. -/
theorem run_value (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v19) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v19 (Pipeline.mem_restRefs_of main_v19 (by decide) (by decide))).trans (result_ref m hpre c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c)))⟩)
    (run_main m ρ)

end Cert.KernelIdeal.Assembly

/-! ## The claims -/

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result buffer at the reference's term of the (agreeing) arguments. -/
theorem algebraic : Cert.algebraic_KernelIdeal_ReferenceIdeal := by
  intro m ρ m' ρ' hpre hagree
  refine ⟨_, Cert.KernelIdeal.Assembly.run_value m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v41_eq, h0, h1, h2, h3, h4, h5, h6, h7, h8, h9, h10, h11]

end Cert.Proof.Claims

end
-- ==== Proof.lean ====
/-
  One step of an equivariant graph network's coordinate update, computed two ways.

  For each of 800000 edges (row e → col e) a two-layer perceptron with silu activations is applied to the joined row
  (h[row e], h[col e], edge_attr e) of 257 numbers and projected to one number; that number scales the edge's coordinate
  difference, the edge mask multiplies it, the three numbers are added into the row of the edge's first endpoint, the sum
  is divided by 100, added to the coordinates and multiplied by the node mask.
  The kernel program gathers the rows of h on the host (in the manner that fills rows whose index is out of range), runs
  the perceptron, the scaling and the masking in one kernel over 200 blocks of 4000 edges — the first layer as three
  products, with the row blocks 0‥127, 128‥255 and 256 of W1 — and leaves the summation by first endpoint and what follows
  to the host. The reference does everything on the host, the first layer as one product of the joined row with W1.
  Over the extended reals the two are one function of the arguments as soon as every entry of edge_index lies in
  0‥49999 (the precondition's last conjuncts; outside that range the reference itself indexes h out of range): then the
  filling take is the reference's gather, a sum of 257 products is the sum of its first 128, next 128 and last terms
  (no finiteness is needed for that), silu is x · logistic x on both sides, and the operations after the perceptron are
  the same on both sides and are never opened.
  Modules: EdgeSpec (the per-edge function and the split of the first layer's sum), LibDotPlain (a plain matrix product at
  an entry), KernelPayload (the kernel's stored value at an entry of its block), KernelArray (its output array after the
  200 points), TakeFill (the filling take under the precondition), HostSide (what the host operations before the kernel
  leave), Tail (the operations after it as one function), RefRead (the reference's per-edge array at an entry),
  Assembly (the two results are one term; the five claims).
-/
import proofs.«421546_j35570919145942_1_alg».proof.Defs
import proofs.«421546_j35570919145942_1_alg».proof.Proof.Gen.Kernel
import proofs.«421546_j35570919145942_1_alg».proof.Proof.Gen.KernelIdeal
import proofs.«421546_j35570919145942_1_alg».proof.Proof.Gen.ReferenceIdeal
import proofs.«421546_j35570919145942_1_alg».proof.Proof.Gen.Pre_finite_inputs
import proofs.«421546_j35570919145942_1_alg».proof.Proof.Gen.ReferenceIdeal.Run
import proofs.«421546_j35570919145942_1_alg».proof.Proof.Gen.ReferenceIdeal.Read
import proofs.«421546_j35570919145942_1_alg».proof.Proof.Assembly

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
